-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x3 : Shape := ⟨3, ![256, 128, 3]⟩
abbrev S256x128 : Shape := ⟨2, ![256, 128]⟩
abbrev S256x128x1 : Shape := ⟨3, ![256, 128, 1]⟩
abbrev S2x4194304 : Shape := ⟨2, ![2, 4194304]⟩
abbrev S4194304x1 : Shape := ⟨2, ![4194304, 1]⟩
abbrev S100x255 : Shape := ⟨2, ![100, 255]⟩
abbrev S256x512 : Shape := ⟨2, ![256, 512]⟩
abbrev S512 : Shape := ⟨1, ![512]⟩
abbrev S_ : Shape := ⟨0, ![]⟩

class Facts : Prop where
  bcast_S_S256x128x3 : S_.BroadcastsInDim S256x128x3 (![] : Fin 0 → Fin S256x128x3.rank)
  reducesTo_S256x128x3_S_d0_1_2 : S256x128x3.ReducesTo [0, 1, 2] S_
  h_S_ : 0 < S_.numel
  bcast_S_S256x128x1 : S_.BroadcastsInDim S256x128x1 (![] : Fin 0 → Fin S256x128x1.rank)
  reducesTo_S256x128x1_S_d0_1_2 : S256x128x1.ReducesTo [0, 1, 2] S_
  bcast_S_S4194304x1 : S_.BroadcastsInDim S4194304x1 (![] : Fin 0 → Fin S4194304x1.rank)
  reducesTo_S4194304x1_S_d0_1 : S4194304x1.ReducesTo [0, 1] S_
  bcast_S_S100x255 : S_.BroadcastsInDim S100x255 (![] : Fin 0 → Fin S100x255.rank)
  reducesTo_S100x255_S_d0_1 : S100x255.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg1 : IVec S256x128 32) (main_arg4 : FVec F S256x128x1 .f32) (main_v33 : IVec S_ 1) : IVec S_ 1 :=
  let main_c_12 : IVec S_ 32 := constantI S_ 32 0#32
  let main_v34 : IVec S256x128 32 := broadcastInDim S256x128 ![] bcast_S_S256x128 main_c_12
  let main_v35 : IVec S256x128 1 := cmpi .sge main_arg1 main_v34
  let main_c_13 : IVec S_ 32 := constantI S_ 32 100#32
  let main_v36 : IVec S256x128 32 := broadcastInDim S256x128 ![] bcast_S_S256x128 main_c_13
  let main_v37 : IVec S256x128 1 := cmpi .slt main_arg1 main_v36
  let main_v38 : IVec S256x128 1 := andi main_v35 main_v37
  let main_c_14 : IVec S_ 1 := constantI S_ 1 1#1
  let main_v39 : IVec S_ 1 := (fun x v => Host.reduce IntOp.andi x v reducesTo_S256x128_S_d0_1 h_S_) main_v38 main_c_14
  let main_v40 : IVec S_ 1 := andi main_v33 main_v39
  let main_cst_15 : FVec F S_ .f32 := constant S_ .f32 0x00000000#32
  let main_v41 : FVec F S256x128x1 .f32 := broadcastInDim S256x128x1 ![] bcast_S_S256x128x1 main_cst_15
  let main_v42 : IVec S256x128x1 1 := cmpf .oeq main_arg4 main_v41
  let main_cst_16 : FVec F S_ .f32 := constant S_ .f32 0x3F800000#32
  let main_v43 : FVec F S256x128x1 .f32 := broadcastInDim S256x128x1 ![] bcast_S_S256x128x1 main_cst_16
  let main_v44 : IVec S256x128x1 1 := cmpf .oeq main_arg4 main_v43
  let main_v45 : IVec S256x128x1 1 := ori main_v42 main_v44
  let main_c_17 : IVec S_ 1 := constantI S_ 1 1#1
  let main_v46 : IVec S_ 1 := (fun x v => Host.reduce IntOp.andi x v reducesTo_S256x128x1_S_d0_1_2 h_S_) main_v45 main_c_17
  let main_v47 : IVec S_ 1 := andi main_v40 main_v46
  main_v47

def fn_part1 {F : FTy → Type} [FloatOps F] (main_arg1 : IVec S256x128 32) (main_arg4 : FVec F S256x128x1 .f32) (main_arg6 : FVec F S100x255 .f32) (main_arg7 : FVec F S256x512 .f32) (main_arg8 : FVec F S512 .f32) (main_v13 : IVec S_ 1) (main_v16 : IVec S4194304x1 1) : IVec S_ 1 :=
  let main_c_5 : IVec S_ 1 := constantI S_ 1 1#1
  let main_v17 : IVec S_ 1 := (fun x v => Host.reduce IntOp.andi x v reducesTo_S4194304x1_S_d0_1 h_S_) main_v16 main_c_5
  let main_v18 : IVec S_ 1 := andi main_v13 main_v17
  let main_v19 : FVec F S100x255 .f32 := Host.absf main_arg6
  let main_cst_6 : FVec F S_ .f32 := constant S_ .f32 0x7F800000#32
  let main_v20 : FVec F S100x255 .f32 := broadcastInDim S100x255 ![] bcast_S_S100x255 main_cst_6
  let main_v21 : IVec S100x255 1 := cmpf .olt main_v19 main_v20
  let main_c_7 : IVec S_ 1 := constantI S_ 1 1#1
  let main_v22 : IVec S_ 1 := (fun x v => Host.reduce IntOp.andi x v reducesTo_S100x255_S_d0_1 h_S_) main_v21 main_c_7
  let main_v23 : IVec S_ 1 := andi main_v18 main_v22
  let main_v24 : FVec F S256x512 .f32 := Host.absf main_arg7
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg4 main_v33

def fn {F : FTy → Type} [FloatOps F] (main_arg0 : FVec F S256x128x3 .f32) (main_arg1 : IVec S256x128 32) (main_arg2 : FVec F S256x128x1 .f32) (main_arg3 : IVec S2x4194304 32) (main_arg4 : FVec F S256x128x1 .f32) (main_arg5 : FVec F S4194304x1 .f32) (main_arg6 : FVec F S100x255 .f32) (main_arg7 : FVec F S256x512 .f32) (main_arg8 : FVec F S512 .f32) : IVec S_ 1 :=
  let main_v0 : FVec F S256x128x3 .f32 := Host.absf main_arg0
  let main_cst : FVec F S_ .f32 := constant S_ .f32 0x7F800000#32
  let main_v1 : FVec F S256x128x3 .f32 := broadcastInDim S256x128x3 ![] bcast_S_S256x128x3 main_cst
  let main_v2 : IVec S256x128x3 1 := cmpf .olt main_v0 main_v1
  let main_c : IVec S_ 1 := constantI S_ 1 1#1
  let main_v3 : IVec S_ 1 := (fun x v => Host.reduce IntOp.andi x v reducesTo_S256x128x3_S_d0_1_2 h_S_) main_v2 main_c
  let main_v4 : FVec F S256x128x1 .f32 := Host.absf main_arg2
  let main_cst_0 : FVec F S_ .f32 := constant S_ .f32 0x7F800000#32
  let main_v5 : FVec F S256x128x1 .f32 := broadcastInDim S256x128x1 ![] bcast_S_S256x128x1 main_cst_0
  let main_v6 : IVec S256x128x1 1 := cmpf .olt main_v4 main_v5
  let main_c_1 : IVec S_ 1 := constantI S_ 1 1#1
  let main_v7 : IVec S_ 1 := (fun x v => Host.reduce IntOp.andi x v reducesTo_S256x128x1_S_d0_1_2 h_S_) main_v6 main_c_1
  let main_v8 : IVec S_ 1 := andi main_v3 main_v7
  let main_v9 : FVec F S256x128x1 .f32 := Host.absf main_arg4
  let main_cst_2 : FVec F S_ .f32 := constant S_ .f32 0x7F800000#32
  let main_v10 : FVec F S256x128x1 .f32 := broadcastInDim S256x128x1 ![] bcast_S_S256x128x1 main_cst_2
  let main_v11 : IVec S256x128x1 1 := cmpf .olt main_v9 main_v10
  let main_c_3 : IVec S_ 1 := constantI S_ 1 1#1
  let main_v12 : IVec S_ 1 := (fun x v => Host.reduce IntOp.andi x v reducesTo_S256x128x1_S_d0_1_2 h_S_) main_v11 main_c_3
  let main_v13 : IVec S_ 1 := andi main_v8 main_v12
  let main_v14 : FVec F S4194304x1 .f32 := Host.absf main_arg5
  let main_cst_4 : FVec F S_ .f32 := constant S_ .f32 0x7F800000#32
  let main_v15 : FVec F S4194304x1 .f32 := broadcastInDim S4194304x1 ![] bcast_S_S4194304x1 main_cst_4
  let main_v16 : IVec S4194304x1 1 := cmpf .olt main_v14 main_v15
  fn_part1 (F := F) main_arg1 main_arg4 main_arg6 main_arg7 main_arg8 main_v13 main_v16
-- ==== Kernel.lean ====
abbrev S256x128x3 : Shape := ⟨3, ![256, 128, 3]⟩
abbrev S256x128 : Shape := ⟨2, ![256, 128]⟩
abbrev S256x128x1 : Shape := ⟨3, ![256, 128, 1]⟩
abbrev S2x4194304 : Shape := ⟨2, ![2, 4194304]⟩
abbrev S4194304x1 : Shape := ⟨2, ![4194304, 1]⟩
abbrev S100x255 : Shape := ⟨2, ![100, 255]⟩
abbrev S256x512 : Shape := ⟨2, ![256, 512]⟩
abbrev S512 : Shape := ⟨1, ![512]⟩
abbrev S32768x3 : Shape := ⟨2, ![32768, 3]⟩
abbrev S1x4194304 : Shape := ⟨2, ![1, 4194304]⟩
abbrev S4194304 : Shape := ⟨1, ![4194304]⟩
abbrev S_ : Shape := ⟨0, ![]⟩
abbrev S4194304x3 : Shape := ⟨2, ![4194304, 3]⟩
abbrev S32768x1 : Shape := ⟨2, ![32768, 1]⟩
abbrev S1x512 : Shape := ⟨2, ![1, 512]⟩
abbrev S255x512 : Shape := ⟨2, ![255, 512]⟩
abbrev S100x512 : Shape := ⟨2, ![100, 512]⟩
abbrev S32768x512 : Shape := ⟨2, ![32768, 512]⟩
abbrev S2048x1 : Shape := ⟨2, ![2048, 1]⟩
abbrev S2048x512 : Shape := ⟨2, ![2048, 512]⟩
abbrev S2048x100 : Shape := ⟨2, ![2048, 100]⟩

abbrev nBuf : Space → Nat
  | .hbm => 69
  | .vmem => 9
  | .smem => 0
  | _ => 0

abbrev bufTy : (tb : Table) → Fin (tcTables nBuf tb) → BufTy
  | .hbm, ⟨0, _⟩ => ⟨S256x128x3, .f32⟩
  | .hbm, ⟨1, _⟩ => ⟨S256x128, .i32⟩
  | .hbm, ⟨2, _⟩ => ⟨S256x128x1, .f32⟩
  | .hbm, ⟨3, _⟩ => ⟨S2x4194304, .i32⟩
  | .hbm, ⟨4, _⟩ => ⟨S256x128x1, .f32⟩
  | .hbm, ⟨5, _⟩ => ⟨S4194304x1, .f32⟩
  | .hbm, ⟨6, _⟩ => ⟨S100x255, .f32⟩
  | .hbm, ⟨7, _⟩ => ⟨S256x512, .f32⟩
  | .hbm, ⟨8, _⟩ => ⟨S512, .f32⟩
  | .hbm, ⟨9, _⟩ => ⟨S32768x3, .f32⟩
  | .hbm, ⟨10, _⟩ => ⟨S1x4194304, .i32⟩
  | .hbm, ⟨11, _⟩ => ⟨S4194304, .i32⟩
  | .hbm, ⟨12, _⟩ => ⟨S1x4194304, .i32⟩
  | .hbm, ⟨13, _⟩ => ⟨S4194304, .i32⟩
  | .hbm, ⟨14, _⟩ => ⟨S_, .i32⟩
  | .hbm, ⟨15, _⟩ => ⟨S4194304, .i32⟩
  | .hbm, ⟨16, _⟩ => ⟨S4194304, .i1⟩
  | .hbm, ⟨17, _⟩ => ⟨S_, .i32⟩
  | .hbm, ⟨18, _⟩ => ⟨S4194304, .i32⟩
  | .hbm, ⟨19, _⟩ => ⟨S4194304, .i32⟩
  | .hbm, ⟨20, _⟩ => ⟨S4194304, .i32⟩
  | .hbm, ⟨21, _⟩ => ⟨S4194304x1, .i32⟩
  | .hbm, ⟨22, _⟩ => ⟨S4194304x3, .f32⟩
  | .hbm, ⟨23, _⟩ => ⟨S_, .i32⟩
  | .hbm, ⟨24, _⟩ => ⟨S4194304, .i32⟩
  | .hbm, ⟨25, _⟩ => ⟨S4194304, .i1⟩
  | .hbm, ⟨26, _⟩ => ⟨S_, .i32⟩
  | .hbm, ⟨27, _⟩ => ⟨S4194304, .i32⟩
  | .hbm, ⟨28, _⟩ => ⟨S4194304, .i32⟩
  | .hbm, ⟨29, _⟩ => ⟨S4194304, .i32⟩
  | .hbm, ⟨30, _⟩ => ⟨S4194304x1, .i32⟩
  | .hbm, ⟨31, _⟩ => ⟨S4194304x3, .f32⟩
  | .hbm, ⟨32, _⟩ => ⟨S4194304x3, .f32⟩
  | .hbm, ⟨33, _⟩ => ⟨S4194304x3, .f32⟩
  | .hbm, ⟨34, _⟩ => ⟨S_, .f32⟩
  | .hbm, ⟨35, _⟩ => ⟨S4194304, .f32⟩
  | .hbm, ⟨36, _⟩ => ⟨S4194304x1, .f32⟩
  | .hbm, ⟨37, _⟩ => ⟨S_, .f32⟩
  | .hbm, ⟨38, _⟩ => ⟨S4194304x1, .f32⟩
  | .hbm, ⟨39, _⟩ => ⟨S4194304x1, .f32⟩
  | .hbm, ⟨40, _⟩ => ⟨S4194304x1, .f32⟩
  | .hbm, ⟨41, _⟩ => ⟨S_, .f32⟩
  | .hbm, ⟨42, _⟩ => ⟨S4194304x1, .f32⟩
  | .hbm, ⟨43, _⟩ => ⟨S4194304x1, .f32⟩
  | .hbm, ⟨44, _⟩ => ⟨S4194304x3, .f32⟩
  | .hbm, ⟨45, _⟩ => ⟨S4194304x3, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S256x128, .i32⟩
  | .hbm, ⟨50, _⟩ => ⟨S256x128, .i32⟩
  | .hbm, ⟨51, _⟩ => ⟨S_, .i32⟩
  | .hbm, ⟨52, _⟩ => ⟨S256x128, .i32⟩
  | .hbm, ⟨53, _⟩ => ⟨S256x128, .i32⟩
  | .hbm, ⟨54, _⟩ => ⟨S32768x1, .f32⟩
  | .hbm, ⟨55, _⟩ => ⟨S32768x1, .i32⟩
  | .hbm, ⟨56, _⟩ => ⟨S_, .f32⟩
  | .hbm, ⟨57, _⟩ => ⟨S32768x1, .f32⟩
  | .hbm, ⟨58, _⟩ => ⟨S32768x1, .i1⟩
  | .hbm, ⟨59, _⟩ => ⟨S_, .i32⟩
  | .hbm, ⟨60, _⟩ => ⟨S32768x1, .i32⟩
  | .hbm, ⟨61, _⟩ => ⟨S32768x1, .i32⟩
  | .hbm, ⟨62, _⟩ => ⟨S32768x1, .f32⟩
  | .hbm, ⟨63, _⟩ => ⟨S32768x1, .f32⟩
  | .hbm, ⟨64, _⟩ => ⟨S1x512, .f32⟩
  | .hbm, ⟨65, _⟩ => ⟨S255x512, .f32⟩
  | .hbm, ⟨66, _⟩ => ⟨S100x512, .f32⟩
  | .hbm, ⟨67, _⟩ => ⟨S100x512, .bf16⟩
  | .hbm, ⟨68, _⟩ => ⟨S32768x512, .f32⟩
  | .local _ .vmem, ⟨0, _⟩ => ⟨S2048x1, .i32⟩
  | .local _ .vmem, ⟨1, _⟩ => ⟨S2048x1, .i32⟩
  | .local _ .vmem, ⟨2, _⟩ => ⟨S2048x1, .f32⟩
  | .local _ .vmem, ⟨3, _⟩ => ⟨S2048x1, .f32⟩
  | .local _ .vmem, ⟨4, _⟩ => ⟨S100x512, .bf16⟩
  | .local _ .vmem, ⟨5, _⟩ => ⟨S1x512, .f32⟩
  | .local _ .vmem, ⟨6, _⟩ => ⟨S512, .f32⟩
  | .local _ .vmem, ⟨7, _⟩ => ⟨S2048x512, .f32⟩
  | .local _ .vmem, ⟨8, _⟩ => ⟨S2048x512, .f32⟩
  | _, _ => ⟨S256x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_c_6 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_call1_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256x128x3_S32768x3 : S256x128x3.ShapeCasts S32768x3
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S4194304x3_S4194304_d1 : S4194304x3.ReducesTo [1] S4194304
  h_S_ : 0 < S_.numel
  bcast_S_S4194304x1 : S_.BroadcastsInDim S4194304x1 (![] : Fin 0 → Fin S4194304x1.rank)
  bcast_S4194304x1_S4194304x3_0_1 : S4194304x1.BroadcastsInDim S4194304x3 (![0, 1] : Fin 2 → Fin S4194304x3.rank)
  bcast_S_S256x128 : S_.BroadcastsInDim S256x128 (![] : Fin 0 → Fin S256x128.rank)
  shapeCasts_S256x128x1_S32768x1 : S256x128x1.ShapeCasts S32768x1
  shapeCasts_S256x128_S32768x1 : S256x128.ShapeCasts S32768x1
  bcast_S_S32768x1 : S_.BroadcastsInDim S32768x1 (![] : Fin 0 → Fin S32768x1.rank)
  slices_S256x512_S1x512_0_0 : S256x512.Slices ![0, 0] S1x512
  slices_S256x512_S255x512_1_0 : S256x512.Slices ![1, 0] S255x512
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x100_d1_w32 : S2048x100.Iotas .tc 32 [1]
  broadcasts_S2048x1_S2048x100 : S2048x1.Broadcasts S2048x100
  natLt_1_32 : 1 < 32
  inb_S100x512_S100x512_0_0 : ∀ a, (![0, 0] : Fin 2 → Nat) a + S100x512.size a ≤ S100x512.size a
  h_S100x512 : 0 < S100x512.numel
  shapeCasts_S100x512_S100x512 : S100x512.ShapeCasts S100x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S512_S512_0 : ∀ a, (![0] : Fin 1 → Nat) a + S512.size a ≤ S512.size a
  h_S512 : 0 < S512.numel
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  gather_S32768x3_S4194304x1_S4194304x3_1_0_n_n_0_1_13_wf : GatherDims.WF S32768x3 S4194304x1 S4194304x3 [1] [0] [] [0] [] 1 ![1, 3]
  dot_S100x255_S255x512_S100x512_1_0_0_1_n_n_wf : DotDims.WF S100x255 S255x512 S100x512 [1] [0] [0] [1] [] []
  dot_S2048x100_S100x512_S2048x512_1_0_0_1_n_n_wf : DotDims.WF S2048x100 S100x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S32768x1.size a
  hwx0_0 : ∀ i : grid0.Coords, EltTy.bits .i32 = 32 ∨ (Rect.block (s := S32768x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S32768x1.size a
  hwx0_1 : ∀ i : grid0.Coords, EltTy.bits .f32 = 32 ∨ (Rect.block (s := S32768x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x512.size a ≤ S100x512.size a
  hwx0_2 : ∀ i : grid0.Coords, EltTy.bits .bf16 = 32 ∨ (Rect.block (s := S100x512) S100x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S32768x512.size a
  hwx0_5 : ∀ i : grid0.Coords, EltTy.bits .f32 = 32 ∨ (Rect.block (s := S32768x512) S2048x512.size (cc0_transform_5 i) (hinb0_5 i)).WholeWords (EltTy.packing .f32)

variable [Facts₀]

def gather_S32768x3_S4194304x1_S4194304x3_1_0_n_n_0_1_13 : GatherDims S32768x3 S4194304x1 S4194304x3 where
  offsetDims := [1]
  collapsedSliceDims := [0]
  operandBatchingDims := []
  startIndicesBatchingDims := []
  startIndexMap := [0]
  indexVectorDim := 1
  sliceSizes := ![1, 3]
  wf := gather_S32768x3_S4194304x1_S4194304x3_1_0_n_n_0_1_13_wf
def dot_S100x255_S255x512_S100x512_1_0_0_1_n_n : DotDims S100x255 S255x512 S100x512 where
  lhsContracting := [1]
  rhsContracting := [0]
  lhsNonContracting := [0]
  rhsNonContracting := [1]
  lhsBatch := []
  rhsBatch := []
  wf := dot_S100x255_S255x512_S100x512_1_0_0_1_n_n_wf
def dot_S2048x100_S100x512_S2048x512_1_0_0_1_n_n : DotDims S2048x100 S100x512 S2048x512 where
  lhsContracting := [1]
  rhsContracting := [0]
  lhsNonContracting := [0]
  rhsNonContracting := [1]
  lhsBatch := []
  rhsBatch := []
  wf := dot_S2048x100_S100x512_S2048x512_1_0_0_1_n_n_wf

abbrev win0_0 : Pipeline.Window sig grid0 :=
  Pipeline.Window.ofSpec (Memref.whole main_v35) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S100x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x128x3 : Shape := ⟨3, ![256, 128, 3]⟩
abbrev S256x128 : Shape := ⟨2, ![256, 128]⟩
abbrev S256x128x1 : Shape := ⟨3, ![256, 128, 1]⟩
abbrev S2x4194304 : Shape := ⟨2, ![2, 4194304]⟩
abbrev S4194304x1 : Shape := ⟨2, ![4194304, 1]⟩
abbrev S100x255 : Shape := ⟨2, ![100, 255]⟩
abbrev S256x512 : Shape := ⟨2, ![256, 512]⟩
abbrev S512 : Shape := ⟨1, ![512]⟩
abbrev S_ : Shape := ⟨0, ![]⟩
abbrev S256x128x255 : Shape := ⟨3, ![256, 128, 255]⟩
abbrev S256x128x256 : Shape := ⟨3, ![256, 128, 256]⟩
abbrev S32768x3 : Shape := ⟨2, ![32768, 3]⟩
abbrev S32768x1 : Shape := ⟨2, ![32768, 1]⟩
abbrev S32768x256 : Shape := ⟨2, ![32768, 256]⟩
abbrev S1x4194304 : Shape := ⟨2, ![1, 4194304]⟩
abbrev S4194304 : Shape := ⟨1, ![4194304]⟩
abbrev S4194304x3 : Shape := ⟨2, ![4194304, 3]⟩
abbrev S32768x512 : Shape := ⟨2, ![32768, 512]⟩
abbrev S1x512 : Shape := ⟨2, ![1, 512]⟩

abbrev nBuf : Space → Nat
  | .hbm => 64
  | .vmem => 0
  | .smem => 0
  | _ => 0

abbrev bufTy : (tb : Table) → Fin (tcTables nBuf tb) → BufTy
  | .hbm, ⟨0, _⟩ => ⟨S256x128x3, .f32⟩
  | .hbm, ⟨1, _⟩ => ⟨S256x128, .i32⟩
  | .hbm, ⟨2, _⟩ => ⟨S256x128x1, .f32⟩
  | .hbm, ⟨3, _⟩ => ⟨S2x4194304, .i32⟩
  | .hbm, ⟨4, _⟩ => ⟨S256x128x1, .f32⟩
  | .hbm, ⟨5, _⟩ => ⟨S4194304x1, .f32⟩
  | .hbm, ⟨6, _⟩ => ⟨S100x255, .f32⟩
  | .hbm, ⟨7, _⟩ => ⟨S256x512, .f32⟩
  | .hbm, ⟨8, _⟩ => ⟨S512, .f32⟩
  | .hbm, ⟨9, _⟩ => ⟨S_, .i32⟩
  | .hbm, ⟨10, _⟩ => ⟨S256x128, .i32⟩
  | .hbm, ⟨11, _⟩ => ⟨S256x128, .i1⟩
  | .hbm, ⟨12, _⟩ => ⟨S_, .i32⟩
  | .hbm, ⟨13, _⟩ => ⟨S256x128, .i32⟩
  | .hbm, ⟨14, _⟩ => ⟨S256x128, .i32⟩
  | .hbm, ⟨15, _⟩ => ⟨S256x128, .i32⟩
  | .hbm, ⟨16, _⟩ => ⟨S256x128x1, .i32⟩
  | .hbm, ⟨17, _⟩ => ⟨S256x128x255, .f32⟩
  | .hbm, ⟨18, _⟩ => ⟨S256x128x256, .f32⟩
  | .hbm, ⟨19, _⟩ => ⟨S32768x3, .f32⟩
  | .hbm, ⟨20, _⟩ => ⟨S32768x1, .f32⟩
  | .hbm, ⟨21, _⟩ => ⟨S32768x256, .f32⟩
  | .hbm, ⟨22, _⟩ => ⟨S32768x256, .f32⟩
  | .hbm, ⟨23, _⟩ => ⟨S32768x256, .f32⟩
  | .hbm, ⟨24, _⟩ => ⟨S1x4194304, .i32⟩
  | .hbm, ⟨25, _⟩ => ⟨S4194304, .i32⟩
  | .hbm, ⟨26, _⟩ => ⟨S1x4194304, .i32⟩
  | .hbm, ⟨27, _⟩ => ⟨S4194304, .i32⟩
  | .hbm, ⟨28, _⟩ => ⟨S_, .i32⟩
  | .hbm, ⟨29, _⟩ => ⟨S4194304, .i32⟩
  | .hbm, ⟨30, _⟩ => ⟨S4194304, .i1⟩
  | .hbm, ⟨31, _⟩ => ⟨S_, .i32⟩
  | .hbm, ⟨32, _⟩ => ⟨S4194304, .i32⟩
  | .hbm, ⟨33, _⟩ => ⟨S4194304, .i32⟩
  | .hbm, ⟨34, _⟩ => ⟨S4194304, .i32⟩
  | .hbm, ⟨35, _⟩ => ⟨S4194304x1, .i32⟩
  | .hbm, ⟨36, _⟩ => ⟨S4194304x3, .f32⟩
  | .hbm, ⟨37, _⟩ => ⟨S_, .i32⟩
  | .hbm, ⟨38, _⟩ => ⟨S4194304, .i32⟩
  | .hbm, ⟨39, _⟩ => ⟨S4194304, .i1⟩
  | .hbm, ⟨40, _⟩ => ⟨S_, .i32⟩
  | .hbm, ⟨41, _⟩ => ⟨S4194304, .i32⟩
  | .hbm, ⟨42, _⟩ => ⟨S4194304, .i32⟩
  | .hbm, ⟨43, _⟩ => ⟨S4194304, .i32⟩
  | .hbm, ⟨44, _⟩ => ⟨S4194304x1, .i32⟩
  | .hbm, ⟨45, _⟩ => ⟨S4194304x3, .f32⟩
  | .hbm, ⟨46, _⟩ => ⟨S4194304x3, .f32⟩
  | .hbm, ⟨47, _⟩ => ⟨S4194304x3, .f32⟩
  | .hbm, ⟨48, _⟩ => ⟨S_, .f32⟩
  | .hbm, ⟨49, _⟩ => ⟨S4194304, .f32⟩
  | .hbm, ⟨50, _⟩ => ⟨S4194304x1, .f32⟩
  | .hbm, ⟨51, _⟩ => ⟨S_, .f32⟩
  | .hbm, ⟨52, _⟩ => ⟨S4194304x1, .f32⟩
  | .hbm, ⟨53, _⟩ => ⟨S4194304x1, .f32⟩
  | .hbm, ⟨54, _⟩ => ⟨S4194304x1, .f32⟩
  | .hbm, ⟨55, _⟩ => ⟨S_, .f32⟩
  | .hbm, ⟨56, _⟩ => ⟨S4194304x1, .f32⟩
  | .hbm, ⟨57, _⟩ => ⟨S4194304x1, .f32⟩
  | .hbm, ⟨58, _⟩ => ⟨S4194304x3, .f32⟩
  | .hbm, ⟨59, _⟩ => ⟨S4194304x3, .f32⟩
  | .hbm, ⟨60, _⟩ => ⟨S32768x512, .f32⟩
  | .hbm, ⟨61, _⟩ => ⟨S1x512, .f32⟩
  | .hbm, ⟨62, _⟩ => ⟨S32768x512, .f32⟩
  | .hbm, ⟨63, _⟩ => ⟨S32768x512, .f32⟩
  | _, _ => ⟨S256x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  bcast_S_S256x128 : S_.BroadcastsInDim S256x128 (![] : Fin 0 → Fin S256x128.rank)
  bcast_S256x128_S256x128x1_0_1 : S256x128.BroadcastsInDim S256x128x1 (![0, 1] : Fin 2 → Fin S256x128x1.rank)
  concatenates_S256x128x1_S256x128x255_S256x128x256_d2 : Shape.Concatenates [S256x128x1, S256x128x255] S256x128x256 2
  shapeCasts_S256x128x3_S32768x3 : S256x128x3.ShapeCasts S32768x3
  shapeCasts_S256x128x1_S32768x1 : S256x128x1.ShapeCasts S32768x1
  shapeCasts_S256x128x256_S32768x256 : S256x128x256.ShapeCasts S32768x256
  bcast_S32768x1_S32768x256_0_1 : S32768x1.BroadcastsInDim S32768x256 (![0, 1] : Fin 2 → Fin S32768x256.rank)
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S4194304x3_S4194304_d1 : S4194304x3.ReducesTo [1] S4194304
  h_S_ : 0 < S_.numel
  bcast_S_S4194304x1 : S_.BroadcastsInDim S4194304x1 (![] : Fin 0 → Fin S4194304x1.rank)
  bcast_S4194304x1_S4194304x3_0_1 : S4194304x1.BroadcastsInDim S4194304x3 (![0, 1] : Fin 2 → Fin S4194304x3.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  gather_S100x255_S256x128x1_S256x128x255_2_0_n_n_0_2_1255_wf : GatherDims.WF S100x255 S256x128x1 S256x128x255 [2] [0] [] [0] [] 2 ![1, 255]
  gather_S32768x3_S4194304x1_S4194304x3_1_0_n_n_0_1_13_wf : GatherDims.WF S32768x3 S4194304x1 S4194304x3 [1] [0] [] [0] [] 1 ![1, 3]
  dot_S32768x256_S256x512_S32768x512_1_0_0_1_n_n_wf : DotDims.WF S32768x256 S256x512 S32768x512 [1] [0] [0] [1] [] []

variable [Facts₀]

def gather_S100x255_S256x128x1_S256x128x255_2_0_n_n_0_2_1255 : GatherDims S100x255 S256x128x1 S256x128x255 where
  offsetDims := [2]
  collapsedSliceDims := [0]
  operandBatchingDims := []
  startIndicesBatchingDims := []
  startIndexMap := [0]
  indexVectorDim := 2
  sliceSizes := ![1, 255]
  wf := gather_S100x255_S256x128x1_S256x128x255_2_0_n_n_0_2_1255_wf
def gather_S32768x3_S4194304x1_S4194304x3_1_0_n_n_0_1_13 : GatherDims S32768x3 S4194304x1 S4194304x3 where
  offsetDims := [1]
  collapsedSliceDims := [0]
  operandBatchingDims := []
  startIndicesBatchingDims := []
  startIndexMap := [0]
  indexVectorDim := 1
  sliceSizes := ![1, 3]
  wf := gather_S32768x3_S4194304x1_S4194304x3_1_0_n_n_0_1_13_wf
def dot_S32768x256_S256x512_S32768x512_1_0_0_1_n_n : DotDims S32768x256 S256x512 S32768x512 where
  lhsContracting := [1]
  rhsContracting := [0]
  lhsNonContracting := [0]
  rhsNonContracting := [1]
  lhsBatch := []
  rhsBatch := []
  wf := dot_S32768x256_S256x512_S32768x512_1_0_0_1_n_n_wf

class Facts : Prop extends Facts₀ where

variable [Facts]
-- ==== Proof.Domain.lean ====
/-
  The precondition read back.  Beside the finiteness of the float inputs it states two things about the domain:
  every category is an index into the 100-row embedding table, `0 ≤ categories < 100` (signed), and the node mask
  takes the values 0 and 1 only.  Each is a `jnp.all`, printed as a reduction by `and` over all axes; the whole
  predicate is their conjunction, so each reduction is one, and then so is each element it reduces.
-/
import proofs.«426029_j20426864460432_3_alg».proof.Pre_finite_inputs
import Idealize.ShloMosaic.Lib.ReduceAll
import Idealize.ShloMosaic.Lib.IdealHost
import Idealize.ShloMosaic.PureOps.Ideal.Laws

noncomputable section

namespace Cert.Hand

open Idealize.ShloMosaic Cert.Pre_finite_inputs

variable [Cert.Pre_finite_inputs.Facts]

instance : Subsingleton S_.Idx := ⟨fun a b => funext fun d => d.elim0⟩

/-- A comparison for equality of extended reals is one exactly when they are equal. -/
theorem cmp_oeq_eq_one (x y : EReal) : Ideal.cmp .oeq x y = 1#1 ↔ x = y := by
  unfold Ideal.cmp
  by_cases h : x = y <;> simp [h]

/-- THE DOMAIN: under the precondition every category is in `[0, 100)` and every mask entry is `0` or `1`. -/
theorem domain_of_pre (a0 : FVec Ideal S256x128x3 .f32) (a1 : IVec S256x128 32) (a2 : FVec Ideal S256x128x1 .f32)
    (a3 : IVec S2x4194304 32) (a4 : FVec Ideal S256x128x1 .f32) (a5 : FVec Ideal S4194304x1 .f32)
    (a6 : FVec Ideal S100x255 .f32) (a7 : FVec Ideal S256x512 .f32) (a8 : FVec Ideal S512 .f32)
    (h : fn (F := Ideal) a0 a1 a2 a3 a4 a5 a6 a7 a8 = fun _ => 1#1) :
    (∀ i : S256x128.Idx, 0 ≤ (a1 i).toInt ∧ (a1 i).toInt < 100)
    ∧ (∀ i : S256x128x1.Idx, (a4 i : EReal) = 0 ∨ (a4 i : EReal) = 1) := by
  have h0 := congrFun h (fun a => a.elim0)
  dsimp only [fn, fn_part1, fn_part2] at h0
  obtain ⟨h1, hm⟩ := IntOp.andi_eq_one.1 h0
  obtain ⟨-, hc⟩ := IntOp.andi_eq_one.1 h1
  refine ⟨fun i => ?_, fun i => ?_⟩
  · have e := Host.reduce_andi_all _ _ _ _ _ hc i
    obtain ⟨e0, e1⟩ := IntOp.andi_eq_one.1 e
    have g0 : (0#32 : BitVec 32).toInt ≤ (a1 i).toInt := IntOp.cmpi_sge.1 e0
    have g1 : (a1 i).toInt < (100#32 : BitVec 32).toInt := IntOp.cmpi_slt.1 e1
    have z0 : (0#32 : BitVec 32).toInt = 0 := by decide
    have z1 : (100#32 : BitVec 32).toInt = 100 := by decide
    rw [z0] at g0; rw [z1] at g1
    exact ⟨g0, g1⟩
  · have e := Host.reduce_andi_all _ _ _ _ _ hm i
    rcases IntOp.ori_eq_one.1 e with e0 | e1
    · left
      have := (cmp_oeq_eq_one _ _).1 e0
      exact this.trans Ideal.ofBits_zero_f32
    · right
      have := (cmp_oeq_eq_one _ _).1 e1
      exact this.trans Ideal.ofBits_one_f32

end Cert.Hand

end
-- ==== Proof.MaskedSum.lean ====
/-
  The one law that joins the two arrangements of the linear head, on the extended reals.

  A node's feature row is `h = (charge, e₀, …, e_{n-1})`; the reference multiplies the whole row by the node's mask
  `μ` and contracts it with the weight column `w`: `∑ k, (h k · μ) · w k`.  The kernel keeps the charge term apart,
  `(charge · μ) · w 0`, and replaces the rest by a selection out of a table folded beforehand: `∑ c, sel c · T c`, where
  `T c' = ∑ l, e l · w (l+1)` at the node's category `c'` and the selector `sel` is the indicator of `c'` when the
  mask is one and identically zero when the mask is zero.  For a mask in {0, 1} the two agree: at `μ = 1` the head
  of the sum splits off and the indicator picks the table's row; at `μ = 0` every term on both sides is a product
  with zero.  Only `x · 0 = 0`, `0 · x = 0` and `x · 1 = x` are used, which hold at the infinities too, so no
  finiteness is assumed.
-/
import Idealize.ShloMosaic.PureOps.Ideal.Laws

open scoped BigOperators

namespace Cert.Hand

/-- Selecting with an indicator: `∑ c, (if c = c' then 1 else 0) · T c = T c'`. -/
theorem sum_indicator_mul {K : Nat} (T : Fin K → EReal) (c' : Fin K) :
    ∑ c : Fin K, (if c = c' then (1 : EReal) else 0) * T c = T c' := by
  rw [Finset.sum_eq_single c']
  · rw [if_pos rfl, one_mul]
  · intro b _ hb; rw [if_neg hb, zero_mul]
  · intro h; exact absurd (Finset.mem_univ _) h

/-- The masked contraction of a feature row whose head is the charge, against the kernel's split form. -/
theorem masked_head_sum {n K : Nat} (μ charge : EReal) (hμ : μ = 0 ∨ μ = 1)
    (h : Fin (n + 1) → EReal) (w : Fin (n + 1) → EReal) (e : Fin n → EReal)
    (h0 : h 0 = charge) (hs : ∀ l : Fin n, h l.succ = e l)
    (sel T : Fin K → EReal) (c' : Fin K)
    (hsel1 : μ = 1 → ∀ c, sel c = if c = c' then 1 else 0) (hsel0 : μ = 0 → ∀ c, sel c = 0)
    (hT : T c' = ∑ l : Fin n, e l * w l.succ) :
    ∑ k : Fin (n + 1), (h k * μ) * w k = (charge * μ) * w 0 + ∑ c : Fin K, sel c * T c := by
  rcases hμ with rfl | rfl
  · have hz : ∀ c, sel c = 0 := hsel0 rfl
    simp only [mul_zero, zero_mul, hz, Finset.sum_const_zero, add_zero]
  · have hi : ∀ c, sel c = if c = c' then 1 else 0 := hsel1 rfl
    rw [Fin.sum_univ_succ]
    simp only [mul_one, h0, hs, hi]
    rw [sum_indicator_mul T c', hT]

end Cert.Hand
-- ==== Proof.Rows.lean ====
/-
  Flat node rows.  The 256 graphs of 128 nodes each are laid out row-major: flat row `r` is node `r % 128` of graph
  `r / 128`.
-/
import Idealize.ShloMosaic.Lib.ValueIdx

namespace Cert.Hand

/-- The graph of flat row `r`. -/
abbrev gOf (r : Fin 32768) : Fin 256 := ⟨r.val / 128, by have := r.isLt; omega⟩
/-- The node of flat row `r` within its graph. -/
abbrev nOf (r : Fin 32768) : Fin 128 := ⟨r.val % 128, Nat.mod_lt _ (by decide)⟩

end Cert.Hand
-- ==== Proof.RefRow.lean ====
/-
  The reference's `parameters` at one entry.  Flat row `r` is node `r % 128` of graph `r / 128`.  Its feature row has
  256 entries: the charge, then the 255 entries of the embedding table's row the node's category selects — jnp's
  `table[categories]`: a negative word is wrapped by the table's height, the result clamped into the table.  The row is
  multiplied by the node's mask and contracted with the weight's column; the bias is added.
-/
import proofs.«426029_j20426864460432_3_alg».proof.Proof.Gen.ReferenceIdeal.Read
import proofs.«426029_j20426864460432_3_alg».proof.Proof.Rows

noncomputable section

namespace Cert.ReferenceIdeal.Hand

open Cert.ReferenceIdeal Cert.ReferenceIdeal.Gen Cert.ReferenceIdeal.Read Idealize.ShloMosaic Idealize.ShloMosaic.ValueIdx Cert.Hand
open scoped BigOperators

/-- The category word as the lookup uses it: a negative word moved up by the table's height. -/
def wrapped (w : BitVec 32) : BitVec 32 := Scalar.select (IntOp.cmpi .slt w 0#32) (IntOp.addi w 100#32) w

/-- The table row the lookup reads for a category word: the wrapped word, signed, clamped into `[0, 99]`. -/
def rowOf (w : BitVec 32) : Fin 100 := ⟨min (wrapped w).toInt.toNat 99, by omega⟩

/-! ## The lookup read at an index -/

/-- On the table's row axis the gather reads the start index at `(a, b)`, signed and clamped into the table: the axis
    is collapsed, so nothing is added to the start. -/
theorem gather_rows_axis0 (idx : IVec S256x128x1 32) (a : Fin 256) (b : Fin 128) (l : Fin 255) :
    gather_S100x255_S256x128x1_S256x128x255_2_0_n_n_0_2_1255.start (ix3 a b l) idx (0 : Fin 2)
      + gather_S100x255_S256x128x1_S256x128x255_2_0_n_n_0_2_1255.batchCoord (ix3 a b l) (0 : Fin 2)
      + gather_S100x255_S256x128x1_S256x128x255_2_0_n_n_0_2_1255.offCoord (ix3 a b l) (0 : Fin 2)
      = min (idx (ix3 a b 0)).toInt.toNat 99 := by
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ gather_S100x255_S256x128x1_S256x128x255_2_0_n_n_0_2_1255.startIndexMap from List.mem_singleton.mpr rfl)]
  have hsi : gather_S100x255_S256x128x1_S256x128x255_2_0_n_n_0_2_1255.siIdx (ix3 a b l)
      ⟨List.idxOf (0 : Fin 2) gather_S100x255_S256x128x1_S256x128x255_2_0_n_n_0_2_1255.startIndexMap,
        List.idxOf_lt_length_iff.2 (List.mem_singleton.mpr rfl)⟩ = ix3 a b 0 := by
    funext d; refine Fin.ext ?_
    match d with
    | ⟨0, _⟩ => rfl
    | ⟨1, _⟩ => rfl
    | ⟨2, _⟩ => rfl
  rw [hsi]
  rfl

/-- On the table's column axis the gather reads the result's own coordinate: the axis is not indexed, and the whole
    row is the slice. -/
theorem gather_rows_axis1 (idx : IVec S256x128x1 32) (a : Fin 256) (b : Fin 128) (l : Fin 255) :
    gather_S100x255_S256x128x1_S256x128x255_2_0_n_n_0_2_1255.start (ix3 a b l) idx (1 : Fin 2)
      + gather_S100x255_S256x128x1_S256x128x255_2_0_n_n_0_2_1255.batchCoord (ix3 a b l) (1 : Fin 2)
      + gather_S100x255_S256x128x1_S256x128x255_2_0_n_n_0_2_1255.offCoord (ix3 a b l) (1 : Fin 2)
      = l.val := by
  rw [GatherDims.batchCoord_eq_zero _ _ _ List.not_mem_nil, Nat.add_zero]
  have hs : gather_S100x255_S256x128x1_S256x128x255_2_0_n_n_0_2_1255.start (ix3 a b l) idx (1 : Fin 2) = 0 := by
    unfold GatherDims.start
    rw [dif_neg (by decide)]
  have ho : gather_S100x255_S256x128x1_S256x128x255_2_0_n_n_0_2_1255.offCoord (ix3 a b l) (1 : Fin 2) = l.val := by
    unfold GatherDims.offCoord
    rw [dif_pos (by decide)]
    rfl
  rw [hs, ho, Nat.zero_add]

/-- The gather of rows of the `[100, 255]` table at `[256, 128, 1]` start indices: entry `(a, b, l)` is entry `l` of
    the row the start index at `(a, b)` names, read signed and clamped into the table. -/
theorem gather_rows_apply {α : Type} (x : S100x255.Idx → α) (idx : IVec S256x128x1 32) (a : Fin 256) (b : Fin 128) (l : Fin 255) :
    Host.gather gather_S100x255_S256x128x1_S256x128x255_2_0_n_n_0_2_1255 x idx (ix3 a b l)
      = x (ix2 (⟨min (idx (ix3 a b 0)).toInt.toNat 99, by omega⟩ : Fin 100) l) := by
  unfold Host.gather
  congr 1
  funext ax
  refine Fin.ext ?_
  match ax with
  | ⟨0, _⟩ => exact gather_rows_axis0 idx a b l
  | ⟨1, _⟩ => exact gather_rows_axis1 idx a b l

/-- The start index the lookup reads at `(a, b)`: the node's category word, wrapped. -/
theorem start_word (x1 : IVec S256x128 32) (a : Fin 256) (b : Fin 128) :
    val_main_v5 (F := Ideal) x1 (ix3 a b 0) = wrapped (x1 (ix2 a b)) := by
  have hi : idx_main_v5 (ix3 a b (0 : Fin 1)) = ix2 a b := by
    funext d
    match d with
    | ⟨0, _⟩ => rfl
    | ⟨1, _⟩ => rfl
  rw [val_main_v5_apply, hi, val_main_v4_apply, val_main_v1_apply, val_main_v3_apply, val_main_v0_apply, val_main_v2_apply,
    val_main_c_apply, val_main_c_0_apply]
  rfl

/-! ## The feature row -/

/-- Its head is the node's charge. -/
theorem feat_zero (x1 : IVec S256x128 32) (x2 : FVec Ideal S256x128x1 .f32) (x6 : FVec Ideal S100x255 .f32) (a : Fin 256) (b : Fin 128) :
    val_main_v7 (F := Ideal) x1 x2 x6 (ix3 a b (0 : Fin 256)) = x2 (ix3 a b 0) := by
  unfold val_main_v7
  refine concatenate_pair_apply_left (2 : Fin 3) x2 _ concatenates_S256x128x1_S256x128x255_S256x128x256_d2 (ix3 a b (0 : Fin 256)) rfl (ix3 a b 0) (fun d => ?_)
  match d with
  | ⟨0, _⟩ => rfl
  | ⟨1, _⟩ => rfl
  | ⟨2, _⟩ => rfl

/-- Its tail is the table's row at the node's category. -/
theorem feat_succ (x1 : IVec S256x128 32) (x2 : FVec Ideal S256x128x1 .f32) (x6 : FVec Ideal S100x255 .f32) (a : Fin 256) (b : Fin 128) (l : Fin 255) :
    val_main_v7 (F := Ideal) x1 x2 x6 (ix3 a b (l.succ : Fin 256)) = x6 (ix2 (rowOf (x1 (ix2 a b))) l) := by
  unfold val_main_v7
  rw [concatenate_pair_apply_right (2 : Fin 3) x2 (val_main_v6 (F := Ideal) x1 x6) concatenates_S256x128x1_S256x128x255_S256x128x256_d2
    (ix3 a b (l.succ : Fin 256)) rfl rfl (ix3 a b l) (fun d hd => by
      match d with
      | ⟨0, _⟩ => rfl
      | ⟨1, _⟩ => rfl
      | ⟨2, _⟩ => exact absurd rfl hd) (by show l.val + 1 = l.val + 1; rfl)]
  unfold val_main_v6
  rw [gather_rows_apply]
  refine congrArg x6 (congrArg (fun f : Fin 100 => ix2 f l) (Fin.ext ?_))
  show min (val_main_v5 (F := Ideal) x1 (ix3 a b 0)).toInt.toNat 99 = min (wrapped (x1 (ix2 a b))).toInt.toNat 99
  rw [start_word]

/-! ## The row of `parameters` -/

/-- THE REFERENCE AT `(r, j)`: the masked feature row of node `r` against column `j` of the weight, plus the bias. -/
theorem ref_apply (x1 : IVec S256x128 32) (x2 x4 : FVec Ideal S256x128x1 .f32) (x6 : FVec Ideal S100x255 .f32)
    (x7 : FVec Ideal S256x512 .f32) (x8 : FVec Ideal S512 .f32) (r : Fin 32768) (j : Fin 512) :
    (val_main_v45 (F := Ideal) x1 x2 x4 x6 x7 x8 (ix2 r j) : EReal)
      = (∑ k : Fin 256, ((val_main_v7 (F := Ideal) x1 x2 x6 (ix3 (gOf r) (nOf r) k) : EReal) * (x4 (ix3 (gOf r) (nOf r) 0) : EReal))
            * (x7 (ix2 k j) : EReal))
        + (x8 (ix1 j) : EReal) := by
  rw [val_main_v45_apply, val_main_v42_apply, val_main_v44_apply, val_main_v43_apply]
  have eb : idx_main_v43 (idx_main_v44 (ix2 r j)) = ix1 j := by
    funext d
    match d with
    | ⟨0, _⟩ => rfl
  rw [eb]
  show (∑ k : Fin 256, _) + _ = _
  congr 1
  refine Finset.sum_congr rfl fun k _ => ?_
  rw [val_main_v12_apply, val_main_v10_apply, val_main_v11_apply, val_main_v9_apply]
  have e1 : idx_main_v10 (lidx_main_v42 (ix2 r j) k) = ix3 (gOf r) (nOf r) k := by
    funext d
    refine Fin.ext ?_
    have hr := r.isLt
    have hk := k.isLt
    match d with
    | ⟨0, _⟩ => show (r.val * 256 + k.val) / 32768 = r.val / 128; omega
    | ⟨1, _⟩ => show (r.val * 256 + k.val) / 256 % 128 = r.val % 128; omega
    | ⟨2, _⟩ => show (r.val * 256 + k.val) % 256 = k.val; omega
  have e2 : idx_main_v9 (idx_main_v11 (lidx_main_v42 (ix2 r j) k)) = ix3 (gOf r) (nOf r) 0 := by
    funext d
    refine Fin.ext ?_
    have hr := r.isLt
    match d with
    | ⟨0, _⟩ => show (r.val * 1 + 0) / 128 = r.val / 128; omega
    | ⟨1, _⟩ => show (r.val * 1 + 0) / 1 % 128 = r.val % 128; omega
    | ⟨2, _⟩ => rfl
  have e3 : ridx_main_v42 (ix2 r j) k = ix2 k j := by
    funext d
    match d with
    | ⟨0, _⟩ => rfl
    | ⟨1, _⟩ => rfl
  rw [e1, e2, e3]
  rfl

end Cert.ReferenceIdeal.Hand

end
-- ==== Proof.Payload.lean ====
/-
  The kernel body at one entry of its output block.  For row `p` of the block and output column `q` the body stores
      (charge p · w0 q + ∑ c < 100, sel(cat p, c) · table(c, q)) + bias q
  where `cat p` is the row's (masked) category word, `sel(w, c)` is the comparison `c = w` widened to a word and
  converted to a float — one where the iota along the category axis meets the word, zero elsewhere — and the sum is
  the matrix product of the selector rows with the folded table into a zero accumulator.  The change of float
  format on the selector is the identity on the extended reals.
-/
import proofs.«426029_j20426864460432_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- The selector: the comparison of the category axis' position `c` with the row's category word, as a float. -/
def sel (w : BitVec 32) (c : Fin 100) : EReal :=
  ((((IntOp.cmpi .eq (BitVec.ofNat 32 c.val) w).setWidth 32).toInt : ℝ) : EReal)

/-! ## The matrix product's operand indices -/

theorem lhs_dot_0 (i : S2048x512.Idx) (q : dot_S2048x100_S100x512_S2048x512_1_0_0_1_n_n.contr.Idx) :
    (dot_S2048x100_S100x512_S2048x512_1_0_0_1_n_n.lhsIdx i q 0).val = (i 0).val := by
  unfold DotDims.lhsIdx
  rw [dif_neg (show ¬(0 : Fin S2048x100.rank) ∈ dot_S2048x100_S100x512_S2048x512_1_0_0_1_n_n.lhsBatch by decide), dif_pos (show (0 : Fin S2048x100.rank) ∈ dot_S2048x100_S100x512_S2048x512_1_0_0_1_n_n.lhsNonContracting by decide)]
  rfl
theorem lhs_dot_1 (i : S2048x512.Idx) (q : dot_S2048x100_S100x512_S2048x512_1_0_0_1_n_n.contr.Idx) :
    (dot_S2048x100_S100x512_S2048x512_1_0_0_1_n_n.lhsIdx i q 1).val = (q ⟨0, by decide⟩).val :=
  dot_S2048x100_S100x512_S2048x512_1_0_0_1_n_n.lhsIdx_val_of_single rfl i q
theorem rhs_dot_0 (i : S2048x512.Idx) (q : dot_S2048x100_S100x512_S2048x512_1_0_0_1_n_n.contr.Idx) :
    (dot_S2048x100_S100x512_S2048x512_1_0_0_1_n_n.rhsIdx i q 0).val = (q ⟨0, by decide⟩).val :=
  dot_S2048x100_S100x512_S2048x512_1_0_0_1_n_n.rhsIdx_val_of_single rfl i q
theorem rhs_dot_1 (i : S2048x512.Idx) (q : dot_S2048x100_S100x512_S2048x512_1_0_0_1_n_n.contr.Idx) :
    (dot_S2048x100_S100x512_S2048x512_1_0_0_1_n_n.rhsIdx i q 1).val = (i 1).val := by
  unfold DotDims.rhsIdx
  rw [dif_neg (show ¬(1 : Fin S100x512.rank) ∈ dot_S2048x100_S100x512_S2048x512_1_0_0_1_n_n.rhsBatch by decide), dif_pos (show (1 : Fin S100x512.rank) ∈ dot_S2048x100_S100x512_S2048x512_1_0_0_1_n_n.rhsNonContracting by decide)]
  rfl

/-- The product into a zero accumulator, at `(p, q)`: the sum over the category axis of row `p` of the left operand
    times column `q` of the right. -/
theorem matmul_zero_apply (l : FVec Ideal S2048x100 .bf16) (r : FVec Ideal S100x512 .bf16) (p : Fin 2048) (q : Fin 512) :
    matmul dot_S2048x100_S100x512_S2048x512_1_0_0_1_n_n none l r (constant S2048x512 .f32 0x00000000#32) (ix2 p q)
      = ∑ c : Fin 100, (l (ix2 p c) : EReal) * (r (ix2 c q) : EReal) := by
  simp only [matmul]
  rw [Ideal.matmul_constant_zero_apply, ← Equiv.sum_comp (ValueIdx.contrEquiv1 dot_S2048x100_S100x512_S2048x512_1_0_0_1_n_n 100 rfl rfl).symm]
  refine Finset.sum_congr rfl fun k _ => ?_
  have hk := ValueIdx.contrEquiv1_symm_val dot_S2048x100_S100x512_S2048x512_1_0_0_1_n_n 100 rfl rfl k
  have el : dot_S2048x100_S100x512_S2048x512_1_0_0_1_n_n.lhsIdx (ix2 p q) ((ValueIdx.contrEquiv1 dot_S2048x100_S100x512_S2048x512_1_0_0_1_n_n 100 rfl rfl).symm k) = ix2 p k := funext fun a => Fin.ext (by
    match a with
    | ⟨0, _⟩ => exact lhs_dot_0 _ _
    | ⟨1, _⟩ => exact (lhs_dot_1 _ _).trans hk)
  have er : dot_S2048x100_S100x512_S2048x512_1_0_0_1_n_n.rhsIdx (ix2 p q) ((ValueIdx.contrEquiv1 dot_S2048x100_S100x512_S2048x512_1_0_0_1_n_n 100 rfl rfl).symm k) = ix2 k q := funext fun a => Fin.ext (by
    match a with
    | ⟨0, _⟩ => exact (rhs_dot_0 _ _).trans hk
    | ⟨1, _⟩ => exact rhs_dot_1 _ _)
  rw [el, er]

/-! ## The broadcasts -/

/-- A column `[2048,1]` broadcast along the lanes reads its row. -/
theorem bcast_col_f (x : FVec Ideal S2048x1 .f32) (p : Fin 2048) (q : Fin 512) :
    broadcastTo S2048x512 x broadcasts_S2048x1_S2048x512 (ix2 p q) = x (ix2 p 0) :=
  broadcastTo_apply x broadcasts_S2048x1_S2048x512 (ix2 p q) (ix2 p 0) (fun a => by
    match a with
    | ⟨0, _⟩ => show p.val = if (2048 : Nat) = 1 then 0 else p.val; rw [if_neg (by decide)]
    | ⟨1, _⟩ => show (0 : Nat) = if (1 : Nat) = 1 then 0 else q.val; rw [if_pos rfl])

/-- The category column broadcast along the category axis reads its row. -/
theorem bcast_col_i (x : IVec S2048x1 32) (p : Fin 2048) (c : Fin 100) :
    broadcastTo S2048x100 x broadcasts_S2048x1_S2048x100 (ix2 p c) = x (ix2 p 0) :=
  broadcastTo_apply x broadcasts_S2048x1_S2048x100 (ix2 p c) (ix2 p 0) (fun a => by
    match a with
    | ⟨0, _⟩ => show p.val = if (2048 : Nat) = 1 then 0 else p.val; rw [if_neg (by decide)]
    | ⟨1, _⟩ => show (0 : Nat) = if (1 : Nat) = 1 then 0 else c.val; rw [if_pos rfl])

/-- A row `[1,512]` broadcast down the rows reads its column. -/
theorem bcast_row_f (x : FVec Ideal S1x512 .f32) (p : Fin 2048) (q : Fin 512) :
    broadcastTo S2048x512 x broadcasts_S1x512_S2048x512 (ix2 p q) = x (ix2 0 q) :=
  broadcastTo_apply x broadcasts_S1x512_S2048x512 (ix2 p q) (ix2 0 q) (fun a => by
    match a with
    | ⟨0, _⟩ => show (0 : Nat) = if (1 : Nat) = 1 then 0 else p.val; rw [if_pos rfl]
    | ⟨1, _⟩ => show q.val = if (512 : Nat) = 1 then 0 else q.val; rw [if_neg (by decide)])

/-- The bias vector viewed as a one-row matrix. -/
theorem cast_bias (x : FVec Ideal S512 .f32) (q : Fin 512) :
    shapeCast S1x512 x shapeCasts_S512_S1x512 (ix2 0 q) = x (ix1 q) :=
  shapeCast_apply x shapeCasts_S512_S1x512 (ix2 0 q) (ix1 q) (by
    rewrite [Shape.rowMajor_val_one, Shape.rowMajor_val_two]
    show q.val = 0 * 512 + q.val
    omega)

/-- The selector matrix of a block: row `p` compares the category axis' positions with row `p`'s category word. -/
abbrev onehot (x : IVec S2048x1 32) : FVec Ideal S2048x100 .bf16 :=
  truncf .bf16 (sitofp .f32 (extui 32 (cmpi .eq (iota .tc S2048x100 32 [1] iota_S2048x100_d1_w32)
    (broadcastTo S2048x100 x broadcasts_S2048x1_S2048x100)) natLt_1_32) : FVec Ideal S2048x100 .f32) bitsLt_bf16_f32

/-- The selector matrix at `(p, c)`. -/
theorem onehot_apply (x : IVec S2048x1 32) (p : Fin 2048) (c : Fin 100) :
    onehot x (ix2 p c) = sel (x (ix2 p 0)) c := by
  show ((((IntOp.cmpi .eq (iota .tc S2048x100 32 [1] iota_S2048x100_d1_w32 (ix2 p c))
      (broadcastTo S2048x100 x broadcasts_S2048x1_S2048x100 (ix2 p c))).setWidth 32).toInt : ℝ) : EReal) = _
  rw [iota_single_apply, bcast_col_i]
  rfl

/-! ## The payload -/

/-- THE BODY'S STORE AT `(p, q)`. -/
theorem payload_apply (v0 : Vec Ideal S2048x1 .i32) (v2 : Vec Ideal S2048x1 .f32) (v10 : Vec Ideal S100x512 .bf16)
    (v13 : Vec Ideal S1x512 .f32) (v19 : Vec Ideal S512 .f32) (p : Fin 2048) (q : Fin 512) :
    (k0_pay1 v0 v2 v10 v13 v19 (ix2 p q) : EReal)
      = ((v2 (ix2 p 0) : EReal) * (v13 (ix2 0 q) : EReal) + ∑ c : Fin 100, sel (v0 (ix2 p 0)) c * (v10 (ix2 c q) : EReal))
        + (v19 (ix1 q) : EReal) := by
  unfold k0_pay1
  simp only [shapeCast_self]
  show ((broadcastTo S2048x512 v2 broadcasts_S2048x1_S2048x512 (ix2 p q) : EReal)
        * (broadcastTo S2048x512 v13 broadcasts_S1x512_S2048x512 (ix2 p q) : EReal)
      + (matmul (F := Ideal) dot_S2048x100_S100x512_S2048x512_1_0_0_1_n_n none (onehot v0) v10 (constant S2048x512 .f32 0x00000000#32) (ix2 p q) : EReal))
      + (broadcastTo S2048x512 (shapeCast S1x512 v19 shapeCasts_S512_S1x512) broadcasts_S1x512_S2048x512 (ix2 p q) : EReal) = _
  rw [bcast_col_f, bcast_row_f, bcast_row_f, cast_bias, matmul_zero_apply]
  simp only [onehot_apply]

end Cert.KernelIdeal.Hand

end
-- ==== Proof.KernelArrays.lean ====
/-
  What the region finds in the arrays its windows stage, as functions of the arguments, and each read at an index.

  * the category column `[32768, 1]`: the node's category clipped into `[0, 99]` where the node's mask is positive,
    the word `-1` elsewhere;
  * the charge column `[32768, 1]`: the node's charge times its mask;
  * the folded table `[100, 512]`: the embedding table times the weight without its first row,
    `table(c, j) = ∑ l < 255, emb(c, l) · W(l + 1, j)` (the change of float format is the identity);
  * the weight's first row `[1, 512]`.
-/
import proofs.«426029_j20426864460432_3_alg».proof.Proof.Gen.KernelIdeal.Frame
import proofs.«426029_j20426864460432_3_alg».proof.Proof.Rows
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Hand
open scoped BigOperators

variable (m : (ℓ : Loc nD τ sig) → Buf (Elt Ideal) ℓ)

/-! ## The four arrays as functions of the arguments -/

/-- The category column. -/
def catCol (x1 : IVec S256x128 32) (x4 : FVec Ideal S256x128x1 .f32) : IVec S32768x1 32 :=
  select (cmpf .ogt (shapeCast S32768x1 x4 shapeCasts_S256x128x1_S32768x1)
      (broadcastInDim S32768x1 ![] bcast_S_S32768x1 (constant S_ .f32 0x00000000#32)))
    (shapeCast S32768x1 (minsi (broadcastInDim S256x128 ![] bcast_S_S256x128 (constantI S_ 32 99#32))
      (maxsi (broadcastInDim S256x128 ![] bcast_S_S256x128 (constantI S_ 32 0#32)) x1)) shapeCasts_S256x128_S32768x1)
    (broadcastInDim S32768x1 ![] bcast_S_S32768x1 (constantI S_ 32 4294967295#32))

/-- The charge column. -/
def chargeCol (x2 x4 : FVec Ideal S256x128x1 .f32) : FVec Ideal S32768x1 .f32 :=
  mulf (shapeCast S32768x1 x2 shapeCasts_S256x128x1_S32768x1) (shapeCast S32768x1 x4 shapeCasts_S256x128x1_S32768x1)

/-- The folded table. -/
def table (x6 : FVec Ideal S100x255 .f32) (x7 : FVec Ideal S256x512 .f32) : FVec Ideal S100x512 .bf16 :=
  truncf .bf16 (Host.dotGeneral dot_S100x255_S255x512_S100x512_1_0_0_1_n_n none x6
    (extractStridedSlice S255x512 ![1, 0] x7 slices_S256x512_S255x512_1_0)) bitsLt_bf16_f32

/-- The weight's first row. -/
def headRow (x7 : FVec Ideal S256x512 .f32) : FVec Ideal S1x512 .f32 :=
  extractStridedSlice S1x512 ![0, 0] x7 slices_S256x512_S1x512_0_0

set_option maxHeartbeats 4000000 in
set_option maxRecDepth 8192 in
theorem V_catCol (c : Dev nD) :
    V m c main_v35 = catCol (m ((c : Thread nD τ).loc main_arg1)) (m ((c : Thread nD τ).loc main_arg4)) := by
  dsimp only [V]
  simp only [hostOps0, hostOps0_1, hostOps0_2, hostOps0_3, hostOps0_4, List.flatten_cons, List.flatten_nil, List.append_nil,
    List.cons_append, List.nil_append]
  after_results_simp
  rfl

set_option maxHeartbeats 4000000 in
set_option maxRecDepth 8192 in
theorem V_chargeCol (c : Dev nD) :
    V m c main_v37 = chargeCol (m ((c : Thread nD τ).loc main_arg2)) (m ((c : Thread nD τ).loc main_arg4)) := by
  dsimp only [V]
  simp only [hostOps0, hostOps0_1, hostOps0_2, hostOps0_3, hostOps0_4, List.flatten_cons, List.flatten_nil, List.append_nil,
    List.cons_append, List.nil_append]
  after_results_simp
  rfl

set_option maxHeartbeats 4000000 in
set_option maxRecDepth 8192 in
theorem V_table (c : Dev nD) :
    V m c main_v41 = table (m ((c : Thread nD τ).loc main_arg6)) (m ((c : Thread nD τ).loc main_arg7)) := by
  dsimp only [V]
  simp only [hostOps0, hostOps0_1, hostOps0_2, hostOps0_3, hostOps0_4, List.flatten_cons, List.flatten_nil, List.append_nil,
    List.cons_append, List.nil_append]
  after_results_simp
  rfl

set_option maxHeartbeats 4000000 in
set_option maxRecDepth 8192 in
theorem V_headRow (c : Dev nD) :
    V m c main_v38 = headRow (m ((c : Thread nD τ).loc main_arg7)) := by
  dsimp only [V]
  simp only [hostOps0, hostOps0_1, hostOps0_2, hostOps0_3, hostOps0_4, List.flatten_cons, List.flatten_nil, List.append_nil,
    List.cons_append, List.nil_append]
  after_results_simp
  rfl

/-! ## Read at an index -/

/-- A `[256, 128, 1]` array flattened to a column reads node `r % 128` of graph `r / 128` at row `r`. -/
theorem cast3_apply {α : Type} (x : S256x128x1.Idx → α) (r : Fin 32768) :
    shapeCast S32768x1 x shapeCasts_S256x128x1_S32768x1 (ix2 r 0) = x (ix3 (gOf r) (nOf r) 0) :=
  shapeCast_apply x shapeCasts_S256x128x1_S32768x1 (ix2 r 0) (ix3 (gOf r) (nOf r) 0) (by
    rewrite [Shape.rowMajor_val_three, Shape.rowMajor_val_two]
    have hr := r.isLt
    show (r.val / 128 * 128 + r.val % 128) * 1 + 0 = r.val * 1 + 0
    omega)

/-- A `[256, 128]` array flattened to a column likewise. -/
theorem cast2_apply {α : Type} (x : S256x128.Idx → α) (r : Fin 32768) :
    shapeCast S32768x1 x shapeCasts_S256x128_S32768x1 (ix2 r 0) = x (ix2 (gOf r) (nOf r)) :=
  shapeCast_apply x shapeCasts_S256x128_S32768x1 (ix2 r 0) (ix2 (gOf r) (nOf r)) (by
    rewrite [Shape.rowMajor_val_two, Shape.rowMajor_val_two]
    have hr := r.isLt
    show r.val / 128 * 128 + r.val % 128 = r.val * 1 + 0
    omega)

/-- The category column at row `r`. -/
theorem catCol_apply (x1 : IVec S256x128 32) (x4 : FVec Ideal S256x128x1 .f32) (r : Fin 32768) :
    catCol x1 x4 (ix2 r 0)
      = Scalar.select (Ideal.cmp .ogt (x4 (ix3 (gOf r) (nOf r) 0) : EReal) (Ideal.ofBits .f32 0x00000000#32))
          (IntOp.minsi 99#32 (IntOp.maxsi 0#32 (x1 (ix2 (gOf r) (nOf r))))) 4294967295#32 := by
  show Scalar.select (Ideal.cmp .ogt (shapeCast S32768x1 x4 shapeCasts_S256x128x1_S32768x1 (ix2 r 0) : EReal) (Ideal.ofBits .f32 0x00000000#32))
      (shapeCast S32768x1 (minsi (broadcastInDim S256x128 ![] bcast_S_S256x128 (constantI S_ 32 99#32))
        (maxsi (broadcastInDim S256x128 ![] bcast_S_S256x128 (constantI S_ 32 0#32)) x1)) shapeCasts_S256x128_S32768x1 (ix2 r 0))
      4294967295#32 = _
  rw [cast3_apply, cast2_apply]
  rfl

/-- The charge column at row `r`. -/
theorem chargeCol_apply (x2 x4 : FVec Ideal S256x128x1 .f32) (r : Fin 32768) :
    (chargeCol x2 x4 (ix2 r 0) : EReal) = (x2 (ix3 (gOf r) (nOf r) 0) : EReal) * (x4 (ix3 (gOf r) (nOf r) 0) : EReal) := by
  show (shapeCast S32768x1 x2 shapeCasts_S256x128x1_S32768x1 (ix2 r 0) : EReal)
      * (shapeCast S32768x1 x4 shapeCasts_S256x128x1_S32768x1 (ix2 r 0) : EReal) = _
  rw [cast3_apply, cast3_apply]

/-- The weight's first row at column `j`. -/
theorem headRow_apply (x7 : FVec Ideal S256x512 .f32) (j : Fin 512) :
    headRow x7 (ix2 0 j) = x7 (ix2 0 j) :=
  extractStridedSlice_apply _ x7 slices_S256x512_S1x512_0_0 (ix2 0 j) (ix2 0 j) (fun a => by
    match a with
    | ⟨0, _⟩ => show (0 : Nat) = 0 + 0; rfl
    | ⟨1, _⟩ => show j.val = 0 + j.val; omega)

/-- The weight without its first row, at `(l, j)`. -/
theorem tailRows_apply (x7 : FVec Ideal S256x512 .f32) (l : Fin 255) (j : Fin 512) :
    extractStridedSlice S255x512 ![1, 0] x7 slices_S256x512_S255x512_1_0 (ix2 l j) = x7 (ix2 (l.succ : Fin 256) j) :=
  extractStridedSlice_apply _ x7 slices_S256x512_S255x512_1_0 (ix2 l j) (ix2 (l.succ : Fin 256) j) (fun a => by
    match a with
    | ⟨0, _⟩ => show l.val + 1 = 1 + l.val; omega
    | ⟨1, _⟩ => show j.val = 0 + j.val; omega)

theorem lhs_fold_0 (i : S100x512.Idx) (q : dot_S100x255_S255x512_S100x512_1_0_0_1_n_n.contr.Idx) :
    (dot_S100x255_S255x512_S100x512_1_0_0_1_n_n.lhsIdx i q 0).val = (i 0).val := by
  unfold DotDims.lhsIdx
  rw [dif_neg (show ¬(0 : Fin S100x255.rank) ∈ dot_S100x255_S255x512_S100x512_1_0_0_1_n_n.lhsBatch by decide), dif_pos (show (0 : Fin S100x255.rank) ∈ dot_S100x255_S255x512_S100x512_1_0_0_1_n_n.lhsNonContracting by decide)]
  rfl
theorem lhs_fold_1 (i : S100x512.Idx) (q : dot_S100x255_S255x512_S100x512_1_0_0_1_n_n.contr.Idx) :
    (dot_S100x255_S255x512_S100x512_1_0_0_1_n_n.lhsIdx i q 1).val = (q ⟨0, by decide⟩).val :=
  dot_S100x255_S255x512_S100x512_1_0_0_1_n_n.lhsIdx_val_of_single rfl i q
theorem rhs_fold_0 (i : S100x512.Idx) (q : dot_S100x255_S255x512_S100x512_1_0_0_1_n_n.contr.Idx) :
    (dot_S100x255_S255x512_S100x512_1_0_0_1_n_n.rhsIdx i q 0).val = (q ⟨0, by decide⟩).val :=
  dot_S100x255_S255x512_S100x512_1_0_0_1_n_n.rhsIdx_val_of_single rfl i q
theorem rhs_fold_1 (i : S100x512.Idx) (q : dot_S100x255_S255x512_S100x512_1_0_0_1_n_n.contr.Idx) :
    (dot_S100x255_S255x512_S100x512_1_0_0_1_n_n.rhsIdx i q 1).val = (i 1).val := by
  unfold DotDims.rhsIdx
  rw [dif_neg (show ¬(1 : Fin S255x512.rank) ∈ dot_S100x255_S255x512_S100x512_1_0_0_1_n_n.rhsBatch by decide), dif_pos (show (1 : Fin S255x512.rank) ∈ dot_S100x255_S255x512_S100x512_1_0_0_1_n_n.rhsNonContracting by decide)]
  rfl

/-- The folded table at `(c, j)`. -/
theorem table_apply (x6 : FVec Ideal S100x255 .f32) (x7 : FVec Ideal S256x512 .f32) (c : Fin 100) (j : Fin 512) :
    (table x6 x7 (ix2 c j) : EReal) = ∑ l : Fin 255, (x6 (ix2 c l) : EReal) * (x7 (ix2 (l.succ : Fin 256) j) : EReal) := by
  show (Host.dotGeneral dot_S100x255_S255x512_S100x512_1_0_0_1_n_n none x6
    (extractStridedSlice S255x512 ![1, 0] x7 slices_S256x512_S255x512_1_0) (ix2 c j) : EReal) = _
  simp only [Host.dotGeneral]
  rw [Ideal.dotGeneral_apply, ← Equiv.sum_comp (ValueIdx.contrEquiv1 dot_S100x255_S255x512_S100x512_1_0_0_1_n_n 255 rfl rfl).symm]
  refine Finset.sum_congr rfl fun k _ => ?_
  have hk := ValueIdx.contrEquiv1_symm_val dot_S100x255_S255x512_S100x512_1_0_0_1_n_n 255 rfl rfl k
  have el : dot_S100x255_S255x512_S100x512_1_0_0_1_n_n.lhsIdx (ix2 c j) ((ValueIdx.contrEquiv1 dot_S100x255_S255x512_S100x512_1_0_0_1_n_n 255 rfl rfl).symm k) = ix2 c k := funext fun a => Fin.ext (by
    match a with
    | ⟨0, _⟩ => exact lhs_fold_0 _ _
    | ⟨1, _⟩ => exact (lhs_fold_1 _ _).trans hk)
  have er : dot_S100x255_S255x512_S100x512_1_0_0_1_n_n.rhsIdx (ix2 c j) ((ValueIdx.contrEquiv1 dot_S100x255_S255x512_S100x512_1_0_0_1_n_n 255 rfl rfl).symm k) = ix2 k j := funext fun a => Fin.ext (by
    match a with
    | ⟨0, _⟩ => exact (rhs_fold_0 _ _).trans hk
    | ⟨1, _⟩ => exact rhs_fold_1 _ _)
  rw [el, er, tailRows_apply]

end Cert.KernelIdeal.Hand

end
-- ==== Proof.KernelValue.lean ====
/-
  The kernel's `parameters` array as one function of the arguments.  The grid has 16 points; point `t` stages rows
  `2048 t … 2048 t + 2047` of the category and charge columns, the whole folded table, the weight's first row and the
  bias, and writes back rows `2048 t … 2048 t + 2047` of the output.  So entry `(r, j)` of the final array is the
  body's store at row `r % 2048` of point `r / 2048`:
      (chargeCol r · headRow j + ∑ c < 100, sel(catCol r, c) · table(c, j)) + bias j.
  The 16 blocks tile the array, so this holds at every entry.
-/
import proofs.«426029_j20426864460432_3_alg».proof.Proof.Gen.KernelIdeal.Value
import proofs.«426029_j20426864460432_3_alg».proof.Proof.Payload
import proofs.«426029_j20426864460432_3_alg».proof.Proof.KernelArrays

set_option maxRecDepth 16384

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Cert.Hand
open Idealize.ShloMosaic.Pipeline (Dat)
open scoped BigOperators

variable (m : (ℓ : Loc nD τ sig) → Buf (Elt Ideal) ℓ) (ρ : Dev nD → PrngReg)

/-- The kernel's result as one function of the arguments, entry by entry. -/
def kernelOut (x1 : IVec S256x128 32) (x2 x4 : FVec Ideal S256x128x1 .f32) (x6 : FVec Ideal S100x255 .f32)
    (x7 : FVec Ideal S256x512 .f32) (x8 : FVec Ideal S512 .f32) : S32768x512.Idx → EReal := fun i =>
  ((chargeCol x2 x4 (ix2 (i 0) 0) : EReal) * (headRow x7 (ix2 0 (i 1)) : EReal)
      + ∑ c : Fin 100, sel (catCol x1 x4 (ix2 (i 0) 0)) c * (table x6 x7 (ix2 c (i 1)) : EReal))
    + (x8 (ix1 (i 1)) : EReal)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 16 points: the two columns and the output move down one block per point;
    the table, the weight's row and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of point `t`'s block is row `2048 t + p` of the array. -/
abbrev rowAt (t : Fin cfg0.N) (p : Fin 2048) : Fin 32768 :=
  ⟨t.val * 2048 + p.val, by have := t.isLt; have h : cfg0.N = 16 := N_0; have := p.isLt; omega⟩

/-! ## The staged blocks read at an index -/

theorem iblk0_apply (c : Dev nD) (t : Fin cfg0.N) (p : Fin 2048) :
    (iblk m c 0 t : Vec Ideal S2048x1 .i32) (ix2 p 0) = (V m c main_v35 : S32768x1.Idx → BitVec 32) (ix2 (rowAt t p) 0) := by
  obtain ⟨e0, e1, -⟩ := idx_facts t
  unfold iblk
  rw [View.read_apply]
  show V m c main_v35 _ = V m c main_v35 _
  congr 1
  funext a
  apply Fin.ext
  match a with
  | ⟨0, _⟩ => show win0_0.index t (0 : Fin 2) * 2048 + 1 * p.val = t.val * 2048 + p.val; rw [e0]; omega
  | ⟨1, _⟩ => show win0_0.index t (1 : Fin 2) * 1 + 1 * 0 = 0; rw [e1]

theorem iblk1_apply (c : Dev nD) (t : Fin cfg0.N) (p : Fin 2048) :
    (iblk m c 1 t : Vec Ideal S2048x1 .f32) (ix2 p 0) = (V m c main_v37 : S32768x1.Idx → EReal) (ix2 (rowAt t p) 0) := by
  obtain ⟨-, -, e0, e1, -⟩ := idx_facts t
  unfold iblk
  rw [View.read_apply]
  show V m c main_v37 _ = V m c main_v37 _
  congr 1
  funext a
  apply Fin.ext
  match a with
  | ⟨0, _⟩ => show win0_1.index t (0 : Fin 2) * 2048 + 1 * p.val = t.val * 2048 + p.val; rw [e0]; omega
  | ⟨1, _⟩ => show win0_1.index t (1 : Fin 2) * 1 + 1 * 0 = 0; rw [e1]

theorem iblk2_apply (c : Dev nD) (t : Fin cfg0.N) (k : Fin 100) (q : Fin 512) :
    (iblk m c 2 t : Vec Ideal S100x512 .bf16) (ix2 k q) = (V m c main_v41 : S100x512.Idx → EReal) (ix2 k q) := by
  obtain ⟨-, -, -, -, e0, e1, -⟩ := idx_facts t
  unfold iblk
  rw [View.read_apply]
  show V m c main_v41 _ = V m c main_v41 _
  congr 1
  funext a
  apply Fin.ext
  match a with
  | ⟨0, _⟩ => show win0_2.index t (0 : Fin 2) * 100 + 1 * k.val = k.val; rw [e0]; omega
  | ⟨1, _⟩ => show win0_2.index t (1 : Fin 2) * 512 + 1 * q.val = q.val; rw [e1]; omega

theorem iblk3_apply (c : Dev nD) (t : Fin cfg0.N) (q : Fin 512) :
    (iblk m c 3 t : Vec Ideal S1x512 .f32) (ix2 0 q) = (V m c main_v38 : S1x512.Idx → EReal) (ix2 0 q) := by
  obtain ⟨-, -, -, -, -, -, e0, e1, -⟩ := idx_facts t
  unfold iblk
  rw [View.read_apply]
  show V m c main_v38 _ = V m c main_v38 _
  congr 1
  funext a
  apply Fin.ext
  match a with
  | ⟨0, _⟩ => show win0_3.index t (0 : Fin 2) * 1 + 1 * 0 = 0; rw [e0]
  | ⟨1, _⟩ => show win0_3.index t (1 : Fin 2) * 512 + 1 * q.val = q.val; rw [e1]; omega

theorem iblk4_apply (c : Dev nD) (t : Fin cfg0.N) (q : Fin 512) :
    (iblk m c 4 t : Vec Ideal S512 .f32) (ix1 q) = (V m c main_arg8 : S512.Idx → EReal) (ix1 q) := by
  obtain ⟨-, -, -, -, -, -, -, -, e0, -⟩ := idx_facts t
  unfold iblk
  rw [View.read_apply]
  show V m c main_arg8 _ = V m c main_arg8 _
  congr 1
  funext a
  apply Fin.ext
  match a with
  | ⟨0, _⟩ => show win0_4.index t (0 : Fin 1) * 512 + 1 * q.val = q.val; rw [e0]; omega

/-! ## What a point writes back -/

/-- Entry `(p, q)` of point `t`'s block sits at `(2048 t + p, q)` of the array. -/
theorem emb5 (t : Fin cfg0.N) (p : Fin 2048) (q : Fin 512) :
    ((cfg0.win 5).blk t).view.emb (ix2 p q) = (ix2 (rowAt t p) q : S32768x512.Idx) := by
  obtain ⟨-, -, -, -, -, -, -, -, -, e0, e1⟩ := idx_facts t
  funext a
  apply Fin.ext
  match a with
  | ⟨0, _⟩ => show win0_5.index t (0 : Fin 2) * 2048 + 1 * p.val = t.val * 2048 + p.val; rw [e0]; omega
  | ⟨1, _⟩ => show win0_5.index t (1 : Fin 2) * 512 + 1 * q.val = q.val; rw [e1]; omega

/-- WHAT POINT `t` WRITES BACK is block `t` of `kernelOut` of the arguments. -/
theorem flushed_eq (c : Dev nD) (t : Fin cfg0.N) :
    (dats m 0 c).flushed 5 t = ((cfg0.win 5).blk t).view.read (Elt Ideal)
      (kernelOut (m ((c : Thread nD τ).loc main_arg1)) (m ((c : Thread nD τ).loc main_arg2)) (m ((c : Thread nD τ).loc main_arg4))
        (m ((c : Thread nD τ).loc main_arg6)) (m ((c : Thread nD τ).loc main_arg7)) (m ((c : Thread nD τ).loc main_arg8))) := by
  rw [flushed5]
  unfold out0_5
  rw [View.canon_unit_zero hz2]
  simp only [View.ld_unit_zero (S := S2048x1) hz2, View.ld_unit_zero (S := S100x512) hz2, View.ld_unit_zero (S := S1x512) hz2,
    View.ld_unit_zero (S := S512) hz1]
  funext y
  obtain ⟨p, q, rfl⟩ : ∃ (p : Fin 2048) (q : Fin 512), y = ix2 p q := ⟨y 0, y 1, eq_ix2 y⟩
  show (k0_pay1 (iblk m c 0 t) (iblk m c 1 t) (iblk m c 2 t) (iblk m c 3 t) (iblk m c 4 t) (ix2 p q) : EReal)
    = kernelOut _ _ _ _ _ _ (((cfg0.win 5).blk t).view.emb (ix2 p q))
  rw [emb5]
  refine (payload_apply (iblk m c 0 t) (iblk m c 1 t) (iblk m c 2 t) (iblk m c 3 t) (iblk m c 4 t) p q).trans ?_
  rw [iblk0_apply, iblk1_apply, iblk3_apply, iblk4_apply]
  simp only [iblk2_apply]
  rw [V_catCol, V_chargeCol, V_headRow, V_table, V_main_arg8]
  rfl

/-! ## The whole array -/

/-- An index of the array is in point `t`'s block iff each coordinate is in the block's range on its axis. -/
theorem mem_blk5 (t : Fin cfg0.N) (i : S32768x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v42).slice (win0_5.rect t)).set ↔ _
  rw [View.set_slice_whole, Rect.mem_set_unit]
  exact Iff.rfl

/-- Every entry is in the block of the point its row falls in. -/
theorem cover5 (i : S32768x512.Idx) : ∃ t : Fin cfg0.N, (cfg0.win 5).flush t = true ∧ i ∈ ((cfg0.win 5).blk t).view.set := by
  have hi0 : (i 0).val < 32768 := (i 0).isLt
  have hi1 : (i 1).val < 512 := (i 1).isLt
  have hN : cfg0.N = 16 := N_0
  refine ⟨⟨(i 0).val / 2048, by omega⟩, flush0_5 _, ?_⟩
  rw [mem_blk5]
  obtain ⟨-, -, -, -, -, -, -, -, -, e0, e1⟩ := idx_facts ⟨(i 0).val / 2048, by omega⟩
  intro a
  match a with
  | ⟨0, _⟩ =>
    show win0_5.index _ (0 : Fin 2) * 2048 ≤ (i 0).val ∧ (i 0).val < win0_5.index _ (0 : Fin 2) * 2048 + 2048
    rw [e0]
    show (i 0).val / 2048 * 2048 ≤ (i 0).val ∧ (i 0).val < (i 0).val / 2048 * 2048 + 2048
    omega
  | ⟨1, _⟩ =>
    show win0_5.index _ (1 : Fin 2) * 512 ≤ (i 1).val ∧ (i 1).val < win0_5.index _ (1 : Fin 2) * 512 + 512
    rw [e1]
    omega

/-- THE ARRAY after the run is `kernelOut` of the arguments. -/
theorem final5 (c : Dev nD) : (dats m 0 c).arrAt 5 cfg0.N
    = kernelOut (m ((c : Thread nD τ).loc main_arg1)) (m ((c : Thread nD τ).loc main_arg2)) (m ((c : Thread nD τ).loc main_arg4))
        (m ((c : Thread nD τ).loc main_arg6)) (m ((c : Thread nD τ).loc main_arg7)) (m ((c : Thread nD τ).loc main_arg8)) :=
  (dats m 0 c).arrAt_eq_of_cover 5 _ (fun t _ => flushed_eq m c t) cover5

end Cert.KernelIdeal.Hand

end
-- ==== Proof.Words.lean ====
/-
  Category words.  A 32-bit word whose signed value lies in `[0, 100)` is its own unsigned value, the kernel's clip
  into `[0, 99]` leaves it alone, and the selector at position `c` is one exactly when `c` is that value.  The word
  `-1`, which the kernel writes for a masked node, meets no position below 100: its selector row is zero.
-/
import proofs.«426029_j20426864460432_3_alg».proof.Proof.Payload
import Idealize.ShloMosaic.Lib.Affine

noncomputable section

namespace Cert.KernelIdeal.Hand

open Idealize.ShloMosaic

/-- A word in `[0, 100)` signed is below 100 unsigned, and its two readings agree. -/
theorem toNat_of_range (w : BitVec 32) (h0 : 0 ≤ w.toInt) (h1 : w.toInt < 100) : w.toNat < 100 ∧ w.toInt = (w.toNat : Int) := by
  have hw := w.isLt
  rw [BitVec.toInt_eq_toNat_cond] at h0 h1 ⊢
  split at h0 <;> split at h1 <;> simp_all <;> omega

/-- The clip into `[0, 99]` of a word already there. -/
theorem clip_id (w : BitVec 32) (h0 : 0 ≤ w.toInt) (h1 : w.toInt < 100) : IntOp.minsi 99#32 (IntOp.maxsi 0#32 w) = w := by
  have e0 : (0#32 : BitVec 32).toInt = 0 := by decide
  have e99 : (99#32 : BitVec 32).toInt = 99 := by decide
  have hmax : IntOp.maxsi 0#32 w = w := by
    unfold IntOp.maxsi
    rw [if_neg]
    rw [BitVec.slt_iff_toInt_lt, e0]
    omega
  rw [hmax]
  unfold IntOp.minsi
  rw [if_neg]
  rw [BitVec.slt_iff_toInt_lt, e99]
  omega

theorem bit_ne_one : ∀ b : BitVec 1, b ≠ 1#1 → b = 0#1 := by decide

/-- The selector is the indicator of the word among the positions. -/
theorem sel_eq_ite (w : BitVec 32) (c : Fin 100) : sel w c = if BitVec.ofNat 32 c.val = w then 1 else 0 := by
  unfold sel
  by_cases h : BitVec.ofNat 32 c.val = w
  · rw [if_pos h, IntOp.cmpi_eq.2 h]
    have e : ((1#1 : BitVec 1).setWidth 32).toInt = 1 := by decide
    rw [e]
    norm_num
  · rw [if_neg h, bit_ne_one _ (mt IntOp.cmpi_eq.1 h)]
    have e : ((0#1 : BitVec 1).setWidth 32).toInt = 0 := by decide
    rw [e]
    norm_num

/-- Position `c` is the word exactly when `c` is the word's value, for a word below 100. -/
theorem ofNat_eq_iff (w : BitVec 32) (hw : w.toNat < 100) (c : Fin 100) : BitVec.ofNat 32 c.val = w ↔ c.val = w.toNat := by
  have hc := c.isLt
  constructor
  · intro h
    have := congrArg BitVec.toNat h
    rw [BitVec.toNat_ofNat] at this
    omega
  · intro h
    apply BitVec.eq_of_toNat_eq
    rw [BitVec.toNat_ofNat]
    omega

/-- The word `-1` meets no position. -/
theorem sel_neg_one (c : Fin 100) : sel 4294967295#32 c = 0 := by
  rw [sel_eq_ite, if_neg]
  intro h
  have hc := c.isLt
  have := congrArg BitVec.toNat h
  rw [BitVec.toNat_ofNat] at this
  have e : (4294967295#32 : BitVec 32).toNat = 4294967295 := by decide
  rw [e] at this
  omega

end Cert.KernelIdeal.Hand

end
-- ==== Proof.Bridge.lean ====
/-
  The kernel's `parameters` and the reference's are one function of the arguments, on the stated domain.

  At entry `(r, j)`, with `g = r / 128`, `n = r % 128`, `μ` the node's mask, `w` its category word:
  the reference is `∑ k < 256, (feat k · μ) · W(k, j) + bias j` with `feat 0` the charge and `feat (l+1) = emb(row w, l)`;
  the kernel is `(charge · μ) · W(0, j) + ∑ c < 100, sel(w', c) · table(c, j) + bias j` with `w'` the clipped word where
  `μ > 0` and `-1` elsewhere.  For `w` in `[0, 100)` neither the reference's wrap-and-clamp nor the kernel's clip moves
  it, so both name row `w`; for `μ` in {0, 1} the masked-sum law joins the two arrangements.
-/
import proofs.«426029_j20426864460432_3_alg».proof.Proof.MaskedSum
import proofs.«426029_j20426864460432_3_alg».proof.Proof.RefRow
import proofs.«426029_j20426864460432_3_alg».proof.Proof.KernelValue
import proofs.«426029_j20426864460432_3_alg».proof.Proof.Words

noncomputable section

namespace Cert.Hand

open Idealize.ShloMosaic Idealize.ShloMosaic.ValueIdx Cert.KernelIdeal.Hand Cert.ReferenceIdeal.Hand
open scoped BigOperators

/-- A non-negative word is not wrapped. -/
theorem wrapped_id (w : BitVec 32) (h0 : 0 ≤ w.toInt) : wrapped w = w := by
  unfold wrapped
  have e0 : (0#32 : BitVec 32).toInt = 0 := by decide
  have hne : IntOp.cmpi .slt w 0#32 ≠ 1#1 := by
    rw [Ne, IntOp.cmpi_slt, e0]
    omega
  unfold Scalar.select
  exact if_neg hne

/-- The table row a word in `[0, 100)` names is its value. -/
theorem rowOf_val (w : BitVec 32) (h0 : 0 ≤ w.toInt) (h1 : w.toInt < 100) : (rowOf w).val = w.toNat := by
  obtain ⟨hn, he⟩ := toNat_of_range w h0 h1
  show min (wrapped w).toInt.toNat 99 = w.toNat
  rw [wrapped_id w h0, he, Int.toNat_natCast]
  omega

/-- A positive mask keeps the category, a zero mask replaces it. -/
theorem cmp_ogt_one : Ideal.cmp .ogt (1 : EReal) 0 = 1#1 := by
  unfold Ideal.cmp
  simp
theorem cmp_ogt_zero : Ideal.cmp .ogt (0 : EReal) 0 = 0#1 := by
  unfold Ideal.cmp
  simp

/-- THE TWO PROGRAMS' `parameters` ARE ONE FUNCTION where every category is in `[0, 100)` and the mask is 0 or 1. -/
theorem out_eq (x1 : IVec Cert.KernelIdeal.S256x128 32) (x2 x4 : FVec Ideal Cert.KernelIdeal.S256x128x1 .f32)
    (x6 : FVec Ideal Cert.KernelIdeal.S100x255 .f32) (x7 : FVec Ideal Cert.KernelIdeal.S256x512 .f32)
    (x8 : FVec Ideal Cert.KernelIdeal.S512 .f32)
    (hcat : ∀ i, 0 ≤ (x1 i).toInt ∧ (x1 i).toInt < 100) (hmask : ∀ i, (x4 i : EReal) = 0 ∨ (x4 i : EReal) = 1) :
    kernelOut x1 x2 x4 x6 x7 x8 = Cert.ReferenceIdeal.Read.val_main_v45 (F := Ideal) x1 x2 x4 x6 x7 x8 := by
  funext i
  obtain ⟨r, j, rfl⟩ : ∃ (r : Fin 32768) (j : Fin 512), i = ix2 r j := ⟨i 0, i 1, eq_ix2 i⟩
  rw [ref_apply]
  show ((chargeCol x2 x4 (ix2 r 0) : EReal) * (headRow x7 (ix2 0 j) : EReal)
      + ∑ c : Fin 100, sel (catCol x1 x4 (ix2 r 0)) c * (table x6 x7 (ix2 c j) : EReal)) + (x8 (ix1 j) : EReal) = _
  rw [chargeCol_apply, headRow_apply, catCol_apply]
  simp only [table_apply]
  congr 1
  obtain ⟨h0, h1⟩ := hcat (ix2 (gOf r) (nOf r))
  obtain ⟨hn, he⟩ := toNat_of_range _ h0 h1
  refine (masked_head_sum (n := 255) (K := 100) (x4 (ix3 (gOf r) (nOf r) 0) : EReal) (x2 (ix3 (gOf r) (nOf r) 0) : EReal) (hmask _)
    (fun k => (Cert.ReferenceIdeal.Read.val_main_v7 (F := Ideal) x1 x2 x6 (ix3 (gOf r) (nOf r) k) : EReal))
    (fun k => (x7 (ix2 k j) : EReal))
    (fun l => (x6 (ix2 (rowOf (x1 (ix2 (gOf r) (nOf r)))) l) : EReal))
    (feat_zero x1 x2 x6 _ _) (fun l => feat_succ x1 x2 x6 _ _ l)
    (fun c => sel (Scalar.select (Ideal.cmp .ogt (x4 (ix3 (gOf r) (nOf r) 0) : EReal) (Ideal.ofBits .f32 0x00000000#32))
      (IntOp.minsi 99#32 (IntOp.maxsi 0#32 (x1 (ix2 (gOf r) (nOf r))))) 4294967295#32) c)
    (fun c => ∑ l : Fin 255, (x6 (ix2 c l) : EReal) * (x7 (ix2 (l.succ : Fin 256) j) : EReal))
    (rowOf (x1 (ix2 (gOf r) (nOf r)))) ?_ ?_ rfl).symm
  · intro hμ c
    show sel (Scalar.select (Ideal.cmp .ogt (x4 (ix3 (gOf r) (nOf r) 0) : EReal) (Ideal.ofBits .f32 0x00000000#32))
      (IntOp.minsi 99#32 (IntOp.maxsi 0#32 (x1 (ix2 (gOf r) (nOf r))))) 4294967295#32) c = _
    rw [hμ, Ideal.ofBits_zero_f32, cmp_ogt_one]
    show sel (IntOp.minsi 99#32 (IntOp.maxsi 0#32 (x1 (ix2 (gOf r) (nOf r))))) c = _
    rw [clip_id _ h0 h1, sel_eq_ite]
    have hiff : (c = rowOf (x1 (ix2 (gOf r) (nOf r)))) ↔ c.val = (x1 (ix2 (gOf r) (nOf r))).toNat := by
      rw [Fin.ext_iff, rowOf_val _ h0 h1]
    exact if_congr ((ofNat_eq_iff _ hn c).trans hiff.symm) rfl rfl
  · intro hμ c
    show sel (Scalar.select (Ideal.cmp .ogt (x4 (ix3 (gOf r) (nOf r) 0) : EReal) (Ideal.ofBits .f32 0x00000000#32))
      (IntOp.minsi 99#32 (IntOp.maxsi 0#32 (x1 (ix2 (gOf r) (nOf r))))) 4294967295#32) c = _
    rw [hμ, Ideal.ofBits_zero_f32, cmp_ogt_zero]
    exact sel_neg_one c

end Cert.Hand

end
-- ==== Proof.KernelRun.lean ====
/-
  The kernel's run with all three results named.  `parameters` is the region's output array; `radial` and
  `coord_diff` are written by host operations before the region — the same operations, in the same order, as the
  reference's: the gather of the two endpoints' coordinates, their difference, its squared length, and the
  difference over one plus the root of the length plus 1e-8 — and no window stages them, so the run leaves them
  as the region found them.  They are stated as the reference's own stage functions of the arguments.
-/
import proofs.«426029_j20426864460432_3_alg».proof.Proof.KernelValue
import proofs.«426029_j20426864460432_3_alg».proof.Proof.Gen.ReferenceIdeal.Read

noncomputable section

namespace Cert.KernelIdeal.Hand

open Cert.KernelIdeal Cert.KernelIdeal.Gen Cert.KernelIdeal.Value Idealize.ShloMosaic Idealize.ShloMosaic.TcCoe Idealize.SL.Sem
open Idealize.ShloMosaic.StableHlo

variable (m : (ℓ : Loc nD τ sig) → Buf (Elt Ideal) ℓ) (ρ : Dev nD → PrngReg)

set_option maxHeartbeats 4000000 in
set_option maxRecDepth 8192 in
/-- The squared edge lengths as the region finds them. -/
theorem V_radial (c : Dev nD) :
    V m c main_v22 = Cert.ReferenceIdeal.Read.val_main_v34 (F := Ideal) (m ((c : Thread nD τ).loc main_arg0)) (m ((c : Thread nD τ).loc main_arg3)) := by
  dsimp only [V]
  simp only [hostOps0, hostOps0_1, hostOps0_2, hostOps0_3, hostOps0_4, List.flatten_cons, List.flatten_nil, List.append_nil,
    List.cons_append, List.nil_append]
  after_results_simp
  rfl

set_option maxHeartbeats 4000000 in
set_option maxRecDepth 8192 in
/-- The normalised edge differences as the region finds them. -/
theorem V_coord (c : Dev nD) :
    V m c main_v29 = Cert.ReferenceIdeal.Read.val_main_v41 (F := Ideal) (m ((c : Thread nD τ).loc main_arg0)) (m ((c : Thread nD τ).loc main_arg3)) := by
  dsimp only [V]
  simp only [hostOps0, hostOps0_1, hostOps0_2, hostOps0_3, hostOps0_4, List.flatten_cons, List.flatten_nil, List.append_nil,
    List.cons_append, List.nil_append]
  after_results_simp
  rfl

/-- THE RUN: every result at its function of the arguments, the arguments unchanged. -/
theorem run : θ_run defs (onTc (τ := τ) (main (F := Ideal))) ⟨m, fun _ => 0, ρ⟩ fun r => ∀ c : Dev nD,
      r.2.mem ((c : Thread nD τ).loc main_v42)
        = kernelOut (m ((c : Thread nD τ).loc main_arg1)) (m ((c : Thread nD τ).loc main_arg2)) (m ((c : Thread nD τ).loc main_arg4))
            (m ((c : Thread nD τ).loc main_arg6)) (m ((c : Thread nD τ).loc main_arg7)) (m ((c : Thread nD τ).loc main_arg8))
      ∧ r.2.mem ((c : Thread nD τ).loc main_v22)
        = Cert.ReferenceIdeal.Read.val_main_v34 (F := Ideal) (m ((c : Thread nD τ).loc main_arg0)) (m ((c : Thread nD τ).loc main_arg3))
      ∧ r.2.mem ((c : Thread nD τ).loc main_v29)
        = Cert.ReferenceIdeal.Read.val_main_v41 (F := Ideal) (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(post5 m r h c).trans (final5 m c),
      ((h c).2 main_v22 (Pipeline.mem_restRefs_of main_v22 (by decide) (by decide))).trans (V_radial m c),
      ((h c).2 main_v29 (Pipeline.mem_restRefs_of main_v29 (by decide) (by decide))).trans (V_coord m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.KernelIdeal.Hand

end
-- ==== Proof.lean ====
/-
  A one-hot embedding lookup with a masked linear head, against its jnp reference, over the extended reals.

  The reference gathers a row of the embedding table per node, puts the node's charge in front, multiplies the
  256 features by the node's mask and applies the linear layer:
      parameters(r, j) = ∑ k < 256, (feat_r k · mask_r) · W(k, j) + bias j.
  The kernel folds the table into the weight once, `table = emb · W[1:]`, folds the mask into the category (the
  clipped category where the mask is positive, `-1` elsewhere) and into the charge, and per block of 2048 nodes
  multiplies the one-hot rows of the categories with the folded table:
      parameters(r, j) = (charge_r · mask_r) · W(0, j) + ∑ c < 100, [c = cat_r] · table(c, j) + bias j.
  On the domain the precondition states — categories in [0, 100), the mask 0 or 1 — the two are one function:
  the lookup's wrap-and-clamp and the kernel's clip both leave the category alone, the one-hot row selects the
  table's row, and the masked sum splits at its head (Proof/MaskedSum.lean).  Finiteness of the float inputs is
  not used: the law needs only products with 0 and 1.  The other two results, the squared edge lengths and the
  normalised edge differences, are computed by the same host operations in both programs.

  Modules: Domain (the precondition read back), Payload and KernelArrays (the kernel body and the arrays it is
  fed, at an index), KernelValue (from blocks to the whole array), KernelRun (all three results), RefRow (the
  reference at an index), Words and MaskedSum (the word and sum facts), Bridge (the two functions are one).
-/
import proofs.«426029_j20426864460432_3_alg».proof.Defs
import proofs.«426029_j20426864460432_3_alg».proof.Proof.Gen.Kernel
import proofs.«426029_j20426864460432_3_alg».proof.Proof.Gen.Kernel.Skeleton
import proofs.«426029_j20426864460432_3_alg».proof.Proof.Gen.Kernel.Launch
import proofs.«426029_j20426864460432_3_alg».proof.Proof.Gen.Kernel.Points
import proofs.«426029_j20426864460432_3_alg».proof.Proof.Gen.Kernel.Frame
import proofs.«426029_j20426864460432_3_alg».proof.Proof.Gen.KernelIdeal
import proofs.«426029_j20426864460432_3_alg».proof.Proof.Gen.KernelIdeal.Skeleton
import proofs.«426029_j20426864460432_3_alg».proof.Proof.Gen.KernelIdeal.Launch
import proofs.«426029_j20426864460432_3_alg».proof.Proof.Gen.KernelIdeal.Points
import proofs.«426029_j20426864460432_3_alg».proof.Proof.Gen.KernelIdeal.Frame
import proofs.«426029_j20426864460432_3_alg».proof.Proof.Gen.ReferenceIdeal
import proofs.«426029_j20426864460432_3_alg».proof.Proof.Gen.Pre_finite_inputs
import proofs.«426029_j20426864460432_3_alg».proof.Proof.Gen.KernelIdeal.Value
import proofs.«426029_j20426864460432_3_alg».proof.Proof.Gen.ReferenceIdeal.Run
import proofs.«426029_j20426864460432_3_alg».proof.Proof.Gen.ReferenceIdeal.Read
import proofs.«426029_j20426864460432_3_alg».proof.Proof.Domain
import proofs.«426029_j20426864460432_3_alg».proof.Proof.Bridge
import proofs.«426029_j20426864460432_3_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its generated run, the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The kernel's run on the stated domain, its results as the reference's stage functions of the kernel's arguments. -/
theorem kernel_side (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v42)
          = Cert.ReferenceIdeal.Read.val_main_v45 (F := Ideal)
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_v22)
          = Cert.ReferenceIdeal.Read.val_main_v34 (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_v29)
          = Cert.ReferenceIdeal.Read.val_main_v41 (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) := by
  have dom := fun c => Cert.Hand.domain_of_pre _ _ _ _ _ _ _ _ _ (hpre c)
  exact (θ_run (Cert.KernelIdeal.defs (F := Ideal)) _ _).mono
    (fun r h c => ⟨(h c).1.trans (Cert.Hand.out_eq _ _ _ _ _ _ (dom c).1 (dom c).2), (h c).2⟩)
    (Cert.KernelIdeal.Hand.run m ρ)

/-- From memories that agree on the arguments both programs end with the same three results: the kernel's on the
    stated domain (`kernel_side`), the reference's by its generated run, each stage function at the agreeing arguments. -/
theorem algebraic : Cert.algebraic_KernelIdeal_ReferenceIdeal := by
  intro m ρ m' ρ' hpre hagree
  refine ⟨_, _, _, kernel_side m ρ hpre, ?_⟩
  refine (θ_run (Cert.ReferenceIdeal.defs (F := Ideal)) _ _).mono (fun r h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2.1.trans ?_, (h c).2.2.2⟩
  · rw [a1, a2, a4, a6, a7, a8]
    exact Cert.ReferenceIdeal.Read.val_main_v45_eq _ _ _ _ _ _
  · rw [a0, a3]
    exact Cert.ReferenceIdeal.Read.val_main_v34_eq _ _
  · rw [Cert.ReferenceIdeal.Read.val_main_v41_eq, a0, a3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
